-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x900x92 : Shape := ⟨3, ![128, 900, 92]⟩
abbrev S128x900x4 : Shape := ⟨3, ![128, 900, 4]⟩
abbrev S128x300x4 : Shape := ⟨3, ![128, 300, 4]⟩
abbrev S128x300 : Shape := ⟨2, ![128, 300]⟩
abbrev S_ : Shape := ⟨0, ![]⟩

class Facts : Prop where
  bcast_S_S128x900x92 : S_.BroadcastsInDim S128x900x92 (![] : Fin 0 → Fin S128x900x92.rank)
  reducesTo_S128x900x92_S_d0_1_2 : S128x900x92.ReducesTo [0, 1, 2] S_
  h_S_ : 0 < S_.numel
  bcast_S_S128x900x4 : S_.BroadcastsInDim S128x900x4 (![] : Fin 0 → Fin S128x900x4.rank)
  reducesTo_S128x900x4_S_d0_1_2 : S128x900x4.ReducesTo [0, 1, 2] S_
  bcast_S_S128x300x4 : S_.BroadcastsInDim S128x300x4 (![] : Fin 0 → Fin S128x300x4.rank)
  reducesTo_S128x300x4_S_d0_1_2 : S128x300x4.ReducesTo [0, 1, 2] S_
  bcast_S_S128x300 : S_.BroadcastsInDim S128x300 (![] : Fin 0 → Fin S128x300.rank)
  reducesTo_S128x300_S_d0_1 : S128x300.ReducesTo [0, 1] S_

variable [Facts]

def fn_part1 {F : FTy → Type} [FloatOps F] (main_arg3 : IVec S128x300 32) (main_v13 : IVec S_ 1) (main_v15 : IVec S128x300 1) (main_c_5 : IVec S_ 32) : IVec S_ 1 :=
  let main_v16 : IVec S128x300 32 := broadcastInDim S128x300 ![] bcast_S_S128x300 main_c_5
  let main_v17 : IVec S128x300 1 := cmpi .slt main_arg3 main_v16
  let main_v18 : IVec S128x300 1 := andi main_v15 main_v17
  let main_c_6 : IVec S_ 1 := constantI S_ 1 1#1
  let main_v19 : IVec S_ 1 := (fun x v => Host.reduce IntOp.andi x v reducesTo_S128x300_S_d0_1 h_S_) main_v18 main_c_6
  let main_v20 : IVec S_ 1 := andi main_v13 main_v19
  main_v20

def fn {F : FTy → Type} [FloatOps F] (main_arg0 : FVec F S128x900x92 .f32) (main_arg1 : FVec F S128x900x4 .f32) (main_arg2 : FVec F S128x300x4 .f32) (main_arg3 : IVec S128x300 32) : IVec S_ 1 :=
  let main_v0 : FVec F S128x900x92 .f32 := Host.absf main_arg0
  let main_cst : FVec F S_ .f32 := constant S_ .f32 0x7F800000#32
  let main_v1 : FVec F S128x900x92 .f32 := broadcastInDim S128x900x92 ![] bcast_S_S128x900x92 main_cst
  let main_v2 : IVec S128x900x92 1 := cmpf .olt main_v0 main_v1
  let main_c : IVec S_ 1 := constantI S_ 1 1#1
  let main_v3 : IVec S_ 1 := (fun x v => Host.reduce IntOp.andi x v reducesTo_S128x900x92_S_d0_1_2 h_S_) main_v2 main_c
  let main_v4 : FVec F S128x900x4 .f32 := Host.absf main_arg1
  let main_cst_0 : FVec F S_ .f32 := constant S_ .f32 0x7F800000#32
  let main_v5 : FVec F S128x900x4 .f32 := broadcastInDim S128x900x4 ![] bcast_S_S128x900x4 main_cst_0
  let main_v6 : IVec S128x900x4 1 := cmpf .olt main_v4 main_v5
  let main_c_1 : IVec S_ 1 := constantI S_ 1 1#1
  let main_v7 : IVec S_ 1 := (fun x v => Host.reduce IntOp.andi x v reducesTo_S128x900x4_S_d0_1_2 h_S_) main_v6 main_c_1
  let main_v8 : IVec S_ 1 := andi main_v3 main_v7
  let main_v9 : FVec F S128x300x4 .f32 := Host.absf main_arg2
  let main_cst_2 : FVec F S_ .f32 := constant S_ .f32 0x7F800000#32
  let main_v10 : FVec F S128x300x4 .f32 := broadcastInDim S128x300x4 ![] bcast_S_S128x300x4 main_cst_2
  let main_v11 : IVec S128x300x4 1 := cmpf .olt main_v9 main_v10
  let main_c_3 : IVec S_ 1 := constantI S_ 1 1#1
  let main_v12 : IVec S_ 1 := (fun x v => Host.reduce IntOp.andi x v reducesTo_S128x300x4_S_d0_1_2 h_S_) main_v11 main_c_3
  let main_v13 : IVec S_ 1 := andi main_v8 main_v12
  let main_c_4 : IVec S_ 32 := constantI S_ 32 0#32
  let main_v14 : IVec S128x300 32 := broadcastInDim S128x300 ![] bcast_S_S128x300 main_c_4
  let main_v15 : IVec S128x300 1 := cmpi .sge main_arg3 main_v14
  let main_c_5 : IVec S_ 32 := constantI S_ 32 92#32
  fn_part1 (F := F) main_arg3 main_v13 main_v15 main_c_5
-- ==== Kernel.lean ====
abbrev S128x900x92 : Shape := ⟨3, ![128, 900, 92]⟩
abbrev S128x900x4 : Shape := ⟨3, ![128, 900, 4]⟩
abbrev S128x300x4 : Shape := ⟨3, ![128, 300, 4]⟩
abbrev S128x300 : Shape := ⟨2, ![128, 300]⟩
abbrev S128x1x300 : Shape := ⟨3, ![128, 1, 300]⟩
abbrev S128x4x300 : Shape := ⟨3, ![128, 4, 300]⟩
abbrev S128x900x300 : Shape := ⟨3, ![128, 900, 300]⟩
abbrev S1x900x92 : Shape := ⟨3, ![1, 900, 92]⟩
abbrev S1x900x4 : Shape := ⟨3, ![1, 900, 4]⟩
abbrev S1x4x300 : Shape := ⟨3, ![1, 4, 300]⟩
abbrev S1x1x300 : Shape := ⟨3, ![1, 1, 300]⟩
abbrev S1x900x300 : Shape := ⟨3, ![1, 900, 300]⟩
abbrev S900x92 : Shape := ⟨2, ![900, 92]⟩
abbrev S900x4 : Shape := ⟨2, ![900, 4]⟩
abbrev S4x300 : Shape := ⟨2, ![4, 300]⟩
abbrev S1x300 : Shape := ⟨2, ![1, 300]⟩
abbrev S900 : Shape := ⟨1, ![900]⟩
abbrev S900x1 : Shape := ⟨2, ![900, 1]⟩
abbrev S92x300 : Shape := ⟨2, ![92, 300]⟩
abbrev S900x300 : Shape := ⟨2, ![900, 300]⟩

abbrev nBuf : Space → Nat
  | .hbm => 7
  | .vmem => 10
  | .smem => 0
  | _ => 0

abbrev bufTy : (tb : Table) → Fin (tcTables nBuf tb) → BufTy
  | .hbm, ⟨0, _⟩ => ⟨S128x900x92, .f32⟩
  | .hbm, ⟨1, _⟩ => ⟨S128x900x4, .f32⟩
  | .hbm, ⟨2, _⟩ => ⟨S128x300x4, .f32⟩
  | .hbm, ⟨3, _⟩ => ⟨S128x300, .i32⟩
  | .hbm, ⟨4, _⟩ => ⟨S128x1x300, .i32⟩
  | .hbm, ⟨5, _⟩ => ⟨S128x4x300, .f32⟩
  | .hbm, ⟨6, _⟩ => ⟨S128x900x300, .f32⟩
  | .local _ .vmem, ⟨0, _⟩ => ⟨S1x900x92, .f32⟩
  | .local _ .vmem, ⟨1, _⟩ => ⟨S1x900x92, .f32⟩
  | .local _ .vmem, ⟨2, _⟩ => ⟨S1x900x4, .f32⟩
  | .local _ .vmem, ⟨3, _⟩ => ⟨S1x900x4, .f32⟩
  | .local _ .vmem, ⟨4, _⟩ => ⟨S1x4x300, .f32⟩
  | .local _ .vmem, ⟨5, _⟩ => ⟨S1x4x300, .f32⟩
  | .local _ .vmem, ⟨6, _⟩ => ⟨S1x1x300, .i32⟩
  | .local _ .vmem, ⟨7, _⟩ => ⟨S1x1x300, .i32⟩
  | .local _ .vmem, ⟨8, _⟩ => ⟨S1x900x300, .f32⟩
  | .local _ .vmem, ⟨9, _⟩ => ⟨S1x900x300, .f32⟩
  | _, _ => ⟨S128x900x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x300 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x300_S128x1x300 : S128x300.ShapeCasts S128x1x300
  transposes_S128x300x4_S128x4x300_0_2_1 : S128x300x4.Transposes [0, 2, 1] S128x4x300
  inb_S1x900x92_S1x900x92_0_0_0 : ∀ a, (![0, 0, 0] : Fin 3 → Nat) a + S1x900x92.size a ≤ S1x900x92.size a
  h_S1x900x92 : 0 < S1x900x92.numel
  shapeCasts_S1x900x92_S900x92 : S1x900x92.ShapeCasts S900x92
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S1x4x300_S1x4x300_0_0_0 : ∀ a, (![0, 0, 0] : Fin 3 → Nat) a + S1x4x300.size a ≤ S1x4x300.size a
  h_S1x4x300 : 0 < S1x4x300.numel
  shapeCasts_S1x4x300_S4x300 : S1x4x300.ShapeCasts S4x300
  inb_S1x1x300_S1x1x300_0_0_0 : ∀ a, (![0, 0, 0] : Fin 3 → Nat) a + S1x1x300.size a ≤ S1x1x300.size a
  h_S1x1x300 : 0 < S1x1x300.numel
  shapeCasts_S1x1x300_S1x300 : S1x1x300.ShapeCasts S1x300
  reduces_S900x92_S900 : S900x92.Reduces [1] S900
  shapeCasts_S900_S900x1 : S900.ShapeCasts S900x1
  broadcasts_S900x1_S900x92 : S900x1.Broadcasts S900x92
  bitsLt_bf16_f32 : FTy.bits .bf16 < FTy.bits .f32
  iota_S92x300_d0_w32 : S92x300.Iotas .tc 32 [0]
  broadcasts_S1x300_S92x300 : S1x300.Broadcasts S92x300
  natLt_1_32 : 1 < 32
  slices_S900x4_o0_0_S900x1 : S900x4.Slices ![0, 0] S900x1
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S4x300_o0_0_S1x300 : S4x300.Slices ![0, 0] S1x300
  slices_S4x300_o1_0_S1x300 : S4x300.Slices ![1, 0] S1x300
  slices_S4x300_o2_0_S1x300 : S4x300.Slices ![2, 0] S1x300
  slices_S4x300_o3_0_S1x300 : S4x300.Slices ![3, 0] S1x300
  broadcasts_S900x1_S900x300 : S900x1.Broadcasts S900x300
  broadcasts_S1x300_S900x300 : S1x300.Broadcasts S900x300
  inb_S1x900x300_S1x900x300_0_0_0 : ∀ a, (![0, 0, 0] : Fin 3 → Nat) a + S1x900x300.size a ≤ S1x900x300.size a
  h_S1x900x300 : 0 < S1x900x300.numel
  shapeCasts_S1x900x300_S900x300 : S1x900x300.ShapeCasts S900x300
  shapeCasts_S900x300_S1x900x300 : S900x300.ShapeCasts S1x900x300
  dot_S900x92_S92x300_S900x300_1_0_0_1_n_n_wf : DotDims.WF S900x92 S92x300 S900x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x92.size a ≤ S128x900x92.size a
  hwx0_0 : ∀ i : grid0.Coords, EltTy.bits .f32 = 32 ∨ (Rect.block (s := S128x900x92) S1x900x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S128x900x4.size a
  hwx0_1 : ∀ i : grid0.Coords, EltTy.bits .f32 = 32 ∨ (Rect.block (s := S128x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x300.size a ≤ S128x4x300.size a
  hwx0_2 : ∀ i : grid0.Coords, EltTy.bits .f32 = 32 ∨ (Rect.block (s := S128x4x300) S1x4x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x300.size a ≤ S128x1x300.size a
  hwx0_3 : ∀ i : grid0.Coords, EltTy.bits .i32 = 32 ∨ (Rect.block (s := S128x1x300) S1x1x300.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x300.size a ≤ S128x900x300.size a
  hwx0_4 : ∀ i : grid0.Coords, EltTy.bits .f32 = 32 ∨ (Rect.block (s := S128x900x300) S1x900x300.size (cc0_transform_4 i) (hinb0_4 i)).WholeWords (EltTy.packing .f32)

variable [Facts₀]

def dot_S900x92_S92x300_S900x300_1_0_0_1_n_n : DotDims S900x92 S92x300 S900x300 where
  lhsContracting := [1]
  rhsContracting := [0]
  lhsNonContracting := [0]
  rhsNonContracting := [1]
  lhsBatch := []
  rhsBatch := []
  wf := dot_S900x92_S92x300_S900x300_1_0_0_1_n_n_wf

abbrev win0_0 : Pipeline.Window sig grid0 :=
  Pipeline.Window.ofSpec (Memref.whole main_arg0) S1x900x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x300.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x900x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x900x92 : Shape := ⟨3, ![128, 900, 92]⟩
abbrev S128x900x4 : Shape := ⟨3, ![128, 900, 4]⟩
abbrev S128x300x4 : Shape := ⟨3, ![128, 300, 4]⟩
abbrev S128x300 : Shape := ⟨2, ![128, 300]⟩
abbrev S_ : Shape := ⟨0, ![]⟩
abbrev S128x900 : Shape := ⟨2, ![128, 900]⟩
abbrev S128x900x1 : Shape := ⟨3, ![128, 900, 1]⟩
abbrev S128x1x300 : Shape := ⟨3, ![128, 1, 300]⟩
abbrev S128x300x1 : Shape := ⟨3, ![128, 300, 1]⟩
abbrev S1 : Shape := ⟨1, ![1]⟩
abbrev S1x1x1 : Shape := ⟨3, ![1, 1, 1]⟩
abbrev S128x900x300 : Shape := ⟨3, ![128, 900, 300]⟩
abbrev S128x900x1x4 : Shape := ⟨4, ![128, 900, 1, 4]⟩
abbrev S128x1x300x4 : Shape := ⟨4, ![128, 1, 300, 4]⟩
abbrev S128x900x300x4 : Shape := ⟨4, ![128, 900, 300, 4]⟩
abbrev S128x900x2 : Shape := ⟨3, ![128, 900, 2]⟩
abbrev S128x900x1x2 : Shape := ⟨4, ![128, 900, 1, 2]⟩
abbrev S128x300x2 : Shape := ⟨3, ![128, 300, 2]⟩
abbrev S128x1x300x2 : Shape := ⟨4, ![128, 1, 300, 2]⟩
abbrev S128x900x300x2 : Shape := ⟨4, ![128, 900, 300, 2]⟩
abbrev S128x900x300x1 : Shape := ⟨4, ![128, 900, 300, 1]⟩

abbrev nBuf : Space → Nat
  | .hbm => 195
  | .vmem => 0
  | .smem => 0
  | _ => 0

abbrev hbmTy0_0 (i : Nat) : BufTy := match i % 128 with
  | 0 => ⟨S128x900x92, .f32⟩
  | 1 => ⟨S128x900x4, .f32⟩
  | 2 => ⟨S128x300x4, .f32⟩
  | 3 => ⟨S128x300, .i32⟩
  | 4 => ⟨S_, .f32⟩
  | 5 => ⟨S128x900, .f32⟩
  | 6 => ⟨S_, .f32⟩
  | 7 => ⟨S128x900, .f32⟩
  | 8 => ⟨S128x900, .f32⟩
  | 9 => ⟨S128x900x1, .f32⟩
  | 10 => ⟨S128x900x92, .f32⟩
  | 11 => ⟨S128x900x92, .f32⟩
  | 12 => ⟨S128x900x92, .f32⟩
  | 13 => ⟨S_, .f32⟩
  | 14 => ⟨S128x900, .f32⟩
  | 15 => ⟨S128x900x1, .f32⟩
  | 16 => ⟨S128x900x92, .f32⟩
  | 17 => ⟨S128x900x92, .f32⟩
  | 18 => ⟨S128x1x300, .i32⟩
  | 19 => ⟨S_, .i32⟩
  | 20 => ⟨S128x1x300, .i32⟩
  | 21 => ⟨S128x1x300, .i1⟩
  | 22 => ⟨S_, .i32⟩
  | 23 => ⟨S128x1x300, .i32⟩
  | 24 => ⟨S128x1x300, .i32⟩
  | 25 => ⟨S128x1x300, .i32⟩
  | 26 => ⟨S128x300x1, .i32⟩
  | 27 => ⟨S1, .i32⟩
  | 28 => ⟨S_, .i32⟩
  | 29 => ⟨S128x300x1, .i32⟩
  | 30 => ⟨S128x300x1, .i1⟩
  | 31 => ⟨S1x1x1, .i32⟩
  | 32 => ⟨S128x300x1, .i32⟩
  | 33 => ⟨S128x300x1, .i1⟩
  | 34 => ⟨S128x300x1, .i1⟩
  | 35 => ⟨S_, .i1⟩
  | 36 => ⟨S128x300, .i1⟩
  | 37 => ⟨S128x900x300, .f32⟩
  | 38 => ⟨S128x900x300, .i1⟩
  | 39 => ⟨S_, .f32⟩
  | 40 => ⟨S128x900x300, .f32⟩
  | 41 => ⟨S128x900x300, .f32⟩
  | 42 => ⟨S128x900x300, .f32⟩
  | 43 => ⟨S128x300x1, .f32⟩
  | 44 => ⟨S128x300, .f32⟩
  | 45 => ⟨S128x300x1, .f32⟩
  | 46 => ⟨S128x300, .f32⟩
  | 47 => ⟨S128x300x1, .f32⟩
  | 48 => ⟨S128x300, .f32⟩
  | 49 => ⟨S128x300x1, .f32⟩
  | 50 => ⟨S128x300, .f32⟩
  | 51 => ⟨S128x300, .f32⟩
  | 52 => ⟨S_, .f32⟩
  | 53 => ⟨S128x300, .f32⟩
  | 54 => ⟨S128x300, .f32⟩
  | 55 => ⟨S128x300, .f32⟩
  | 56 => ⟨S_, .f32⟩
  | 57 => ⟨S128x300, .f32⟩
  | 58 => ⟨S128x300, .f32⟩
  | 59 => ⟨S128x300, .f32⟩
  | 60 => ⟨S128x300, .f32⟩
  | 61 => ⟨S128x300x1, .f32⟩
  | 62 => ⟨S128x300x1, .f32⟩
  | 63 => ⟨S128x300x1, .f32⟩
  | 64 => ⟨S128x300x1, .f32⟩
  | 65 => ⟨S128x300x4, .f32⟩
  | 66 => ⟨S128x900x1x4, .f32⟩
  | 67 => ⟨S128x1x300x4, .f32⟩
  | 68 => ⟨S128x900x300x4, .f32⟩
  | 69 => ⟨S128x900x300x4, .f32⟩
  | 70 => ⟨S128x900x300x4, .f32⟩
  | 71 => ⟨S128x900x300x4, .f32⟩
  | 72 => ⟨S_, .f32⟩
  | 73 => ⟨S128x900x300, .f32⟩
  | 74 => ⟨S128x900x1, .f32⟩
  | 75 => ⟨S128x900, .f32⟩
  | 76 => ⟨S128x900x1, .f32⟩
  | 77 => ⟨S128x900, .f32⟩
  | 78 => ⟨S128x900x1, .f32⟩
  | 79 => ⟨S128x900, .f32⟩
  | 80 => ⟨S128x900x1, .f32⟩
  | 81 => ⟨S128x900, .f32⟩
  | 82 => ⟨S_, .f32⟩
  | 83 => ⟨S128x900, .f32⟩
  | 84 => ⟨S128x900, .f32⟩
  | 85 => ⟨S128x900, .f32⟩
  | 86 => ⟨S_, .f32⟩
  | 87 => ⟨S128x900, .f32⟩
  | 88 => ⟨S128x900, .f32⟩
  | 89 => ⟨S128x900, .f32⟩
  | 90 => ⟨S_, .f32⟩
  | 91 => ⟨S128x900, .f32⟩
  | 92 => ⟨S128x900, .f32⟩
  | 93 => ⟨S128x900, .f32⟩
  | 94 => ⟨S_, .f32⟩
  | 95 => ⟨S128x900, .f32⟩
  | 96 => ⟨S128x900, .f32⟩
  | 97 => ⟨S128x900, .f32⟩
  | 98 => ⟨S128x900x1, .f32⟩
  | 99 => ⟨S128x900x1, .f32⟩
  | 100 => ⟨S128x900x1, .f32⟩
  | 101 => ⟨S128x900x1, .f32⟩
  | 102 => ⟨S128x900x4, .f32⟩
  | 103 => ⟨S128x900x1, .f32⟩
  | 104 => ⟨S128x900, .f32⟩
  | 105 => ⟨S128x900x1, .f32⟩
  | 106 => ⟨S128x900, .f32⟩
  | 107 => ⟨S128x900, .f32⟩
  | 108 => ⟨S128x900x1, .f32⟩
  | 109 => ⟨S128x900, .f32⟩
  | 110 => ⟨S128x900x1, .f32⟩
  | 111 => ⟨S128x900, .f32⟩
  | 112 => ⟨S128x900, .f32⟩
  | 113 => ⟨S128x900, .f32⟩
  | 114 => ⟨S128x300x1, .f32⟩
  | 115 => ⟨S128x300, .f32⟩
  | 116 => ⟨S128x300x1, .f32⟩
  | 117 => ⟨S128x300, .f32⟩
  | 118 => ⟨S128x300, .f32⟩
  | 119 => ⟨S128x300x1, .f32⟩
  | 120 => ⟨S128x300, .f32⟩
  | 121 => ⟨S128x300x1, .f32⟩
  | 122 => ⟨S128x300, .f32⟩
  | 123 => ⟨S128x300, .f32⟩
  | 124 => ⟨S128x300, .f32⟩
  | 125 => ⟨S128x900x2, .f32⟩
  | 126 => ⟨S128x900x1x2, .f32⟩
  | 127 => ⟨S128x300x2, .f32⟩
  | _ => ⟨S128x900x92, .f32⟩

abbrev hbmTy0_1 (i : Nat) : BufTy := match i % 128 with
  | 0 => ⟨S128x1x300x2, .f32⟩
  | 1 => ⟨S128x900x300x2, .f32⟩
  | 2 => ⟨S128x900x300x2, .f32⟩
  | 3 => ⟨S128x900x300x2, .f32⟩
  | 4 => ⟨S128x900x2, .f32⟩
  | 5 => ⟨S128x900x1x2, .f32⟩
  | 6 => ⟨S128x300x2, .f32⟩
  | 7 => ⟨S128x1x300x2, .f32⟩
  | 8 => ⟨S128x900x300x2, .f32⟩
  | 9 => ⟨S128x900x300x2, .f32⟩
  | 10 => ⟨S128x900x300x2, .f32⟩
  | 11 => ⟨S128x900x300x2, .f32⟩
  | 12 => ⟨S_, .f32⟩
  | 13 => ⟨S_, .f32⟩
  | 14 => ⟨S128x900x300x2, .f32⟩
  | 15 => ⟨S128x900x300x2, .f32⟩
  | 16 => ⟨S128x900x300x1, .f32⟩
  | 17 => ⟨S128x900x300, .f32⟩
  | 18 => ⟨S128x900x300x1, .f32⟩
  | 19 => ⟨S128x900x300, .f32⟩
  | 20 => ⟨S128x900x300, .f32⟩
  | 21 => ⟨S128x900x1, .f32⟩
  | 22 => ⟨S128x1x300, .f32⟩
  | 23 => ⟨S128x900x300, .f32⟩
  | 24 => ⟨S128x900x300, .f32⟩
  | 25 => ⟨S128x900x300, .f32⟩
  | 26 => ⟨S128x900x300, .f32⟩
  | 27 => ⟨S128x900x300, .f32⟩
  | 28 => ⟨S128x900x2, .f32⟩
  | 29 => ⟨S128x900x1x2, .f32⟩
  | 30 => ⟨S128x300x2, .f32⟩
  | 31 => ⟨S128x1x300x2, .f32⟩
  | 32 => ⟨S128x900x300x2, .f32⟩
  | 33 => ⟨S128x900x300x2, .f32⟩
  | 34 => ⟨S128x900x300x2, .f32⟩
  | 35 => ⟨S128x900x2, .f32⟩
  | 36 => ⟨S128x900x1x2, .f32⟩
  | 37 => ⟨S128x300x2, .f32⟩
  | 38 => ⟨S128x1x300x2, .f32⟩
  | 39 => ⟨S128x900x300x2, .f32⟩
  | 40 => ⟨S128x900x300x2, .f32⟩
  | 41 => ⟨S128x900x300x2, .f32⟩
  | 42 => ⟨S128x900x300x2, .f32⟩
  | 43 => ⟨S_, .f32⟩
  | 44 => ⟨S_, .f32⟩
  | 45 => ⟨S128x900x300x2, .f32⟩
  | 46 => ⟨S128x900x300x2, .f32⟩
  | 47 => ⟨S128x900x300x1, .f32⟩
  | 48 => ⟨S128x900x300, .f32⟩
  | 49 => ⟨S128x900x300x1, .f32⟩
  | 50 => ⟨S128x900x300, .f32⟩
  | 51 => ⟨S128x900x300, .f32⟩
  | 52 => ⟨S128x900x300, .f32⟩
  | 53 => ⟨S128x900x300, .f32⟩
  | 54 => ⟨S128x900x300, .f32⟩
  | 55 => ⟨S128x900x300, .f32⟩
  | 56 => ⟨S_, .f32⟩
  | 57 => ⟨S128x900x300, .f32⟩
  | 58 => ⟨S128x900x300, .f32⟩
  | 59 => ⟨S_, .f32⟩
  | 60 => ⟨S128x900x300, .f32⟩
  | 61 => ⟨S128x900x300, .f32⟩
  | 62 => ⟨S128x900x300, .f32⟩
  | 63 => ⟨S_, .f32⟩
  | 64 => ⟨S128x900x300, .f32⟩
  | 65 => ⟨S128x900x300, .f32⟩
  | 66 => ⟨S128x900x300, .f32⟩
  | _ => ⟨S128x900x92, .f32⟩

abbrev hbmTy (i : Nat) : BufTy := match i / 128 with
  | 0 => hbmTy0_0 i
  | 1 => hbmTy0_1 i
  | _ => ⟨S128x900x92, .f32⟩

abbrev bufTy : (tb : Table) → Fin (tcTables nBuf tb) → BufTy
  | .hbm, ⟨i, _⟩ => hbmTy i
  | _, _ => ⟨S128x900x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_6 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_7 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_8 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_9 : Ref sig .tc := ⟨.hbm, 140, rfl⟩
abbrev main_call1_v0 : Ref sig .tc := ⟨.hbm, 141, rfl⟩
abbrev main_call1_v1 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_10 : Ref sig .tc := ⟨.hbm, 171, rfl⟩
abbrev main_call2_v0 : Ref sig .tc := ⟨.hbm, 172, rfl⟩
abbrev main_call2_v1 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_11 : Ref sig .tc := ⟨.hbm, 184, rfl⟩
abbrev main_v142 : Ref sig .tc := ⟨.hbm, 185, rfl⟩
abbrev main_v143 : Ref sig .tc := ⟨.hbm, 186, rfl⟩
abbrev main_cst_12 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_13 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩

abbrev nD : Nat := 1
abbrev τ : Topo := Topo.v7x

variable {F : FTy → Type} [FloatOps F]

class Facts₀ : Prop where
  reducesTo_S128x900x92_S128x900_d2 : S128x900x92.ReducesTo [2] S128x900
  h_S_ : 0 < S_.numel
  bcast_S_S128x900 : S_.BroadcastsInDim S128x900 (![] : Fin 0 → Fin S128x900.rank)
  bcast_S128x900_S128x900x1_0_1 : S128x900.BroadcastsInDim S128x900x1 (![0, 1] : Fin 2 → Fin S128x900x1.rank)
  bcast_S128x900x1_S128x900x92_0_1_2 : S128x900x1.BroadcastsInDim S128x900x92 (![0, 1, 2] : Fin 3 → Fin S128x900x92.rank)
  bcast_S128x300_S128x1x300_0_2 : S128x300.BroadcastsInDim S128x1x300 (![0, 2] : Fin 2 → Fin S128x1x300.rank)
  bcast_S_S128x1x300 : S_.BroadcastsInDim S128x1x300 (![] : Fin 0 → Fin S128x1x300.rank)
  shapeCasts_S128x1x300_S128x300x1 : S128x1x300.ShapeCasts S128x300x1
  bcast_S_S128x300x1 : S_.BroadcastsInDim S128x300x1 (![] : Fin 0 → Fin S128x300x1.rank)
  bcast_S1_S1x1x1_2 : S1.BroadcastsInDim S1x1x1 (![2] : Fin 1 → Fin S1x1x1.rank)
  bcast_S1x1x1_S128x300x1_0_1_2 : S1x1x1.BroadcastsInDim S128x300x1 (![0, 1, 2] : Fin 3 → Fin S128x300x1.rank)
  reducesTo_S128x300x1_S128x300_d2 : S128x300x1.ReducesTo [2] S128x300
  bcast_S128x300_S128x900x300_0_2 : S128x300.BroadcastsInDim S128x900x300 (![0, 2] : Fin 2 → Fin S128x900x300.rank)
  bcast_S_S128x900x300 : S_.BroadcastsInDim S128x900x300 (![] : Fin 0 → Fin S128x900x300.rank)
  slices_S128x300x4_S128x300x1_0_0_0 : S128x300x4.Slices ![0, 0, 0] S128x300x1
  shapeCasts_S128x300x1_S128x300 : S128x300x1.ShapeCasts S128x300
  slices_S128x300x4_S128x300x1_0_0_1 : S128x300x4.Slices ![0, 0, 1] S128x300x1
  slices_S128x300x4_S128x300x1_0_0_2 : S128x300x4.Slices ![0, 0, 2] S128x300x1
  slices_S128x300x4_S128x300x1_0_0_3 : S128x300x4.Slices ![0, 0, 3] S128x300x1
  bcast_S_S128x300 : S_.BroadcastsInDim S128x300 (![] : Fin 0 → Fin S128x300.rank)
  bcast_S128x300_S128x300x1_0_1 : S128x300.BroadcastsInDim S128x300x1 (![0, 1] : Fin 2 → Fin S128x300x1.rank)
  concatenates_S128x300x1_S128x300x1_S128x300x1_S128x300x1_S128x300x4_d2 : Shape.Concatenates [S128x300x1, S128x300x1, S128x300x1, S128x300x1] S128x300x4 2
  bcast_S128x900x4_S128x900x1x4_0_1_3 : S128x900x4.BroadcastsInDim S128x900x1x4 (![0, 1, 3] : Fin 3 → Fin S128x900x1x4.rank)
  bcast_S128x300x4_S128x1x300x4_0_2_3 : S128x300x4.BroadcastsInDim S128x1x300x4 (![0, 2, 3] : Fin 3 → Fin S128x1x300x4.rank)
  bcast_S128x900x1x4_S128x900x300x4_0_1_2_3 : S128x900x1x4.BroadcastsInDim S128x900x300x4 (![0, 1, 2, 3] : Fin 4 → Fin S128x900x300x4.rank)
  bcast_S128x1x300x4_S128x900x300x4_0_1_2_3 : S128x1x300x4.BroadcastsInDim S128x900x300x4 (![0, 1, 2, 3] : Fin 4 → Fin S128x900x300x4.rank)
  reducesTo_S128x900x300x4_S128x900x300_d3 : S128x900x300x4.ReducesTo [3] S128x900x300
  slices_S128x900x4_S128x900x1_0_0_0 : S128x900x4.Slices ![0, 0, 0] S128x900x1
  shapeCasts_S128x900x1_S128x900 : S128x900x1.ShapeCasts S128x900
  slices_S128x900x4_S128x900x1_0_0_1 : S128x900x4.Slices ![0, 0, 1] S128x900x1
  slices_S128x900x4_S128x900x1_0_0_2 : S128x900x4.Slices ![0, 0, 2] S128x900x1
  slices_S128x900x4_S128x900x1_0_0_3 : S128x900x4.Slices ![0, 0, 3] S128x900x1
  concatenates_S128x900x1_S128x900x1_S128x900x1_S128x900x1_S128x900x4_d2 : Shape.Concatenates [S128x900x1, S128x900x1, S128x900x1, S128x900x1] S128x900x4 2
  slices_S128x900x4_S128x900x2_0_0_0 : S128x900x4.Slices ![0, 0, 0] S128x900x2
  bcast_S128x900x2_S128x900x1x2_0_1_3 : S128x900x2.BroadcastsInDim S128x900x1x2 (![0, 1, 3] : Fin 3 → Fin S128x900x1x2.rank)
  slices_S128x300x4_S128x300x2_0_0_0 : S128x300x4.Slices ![0, 0, 0] S128x300x2
  bcast_S128x300x2_S128x1x300x2_0_2_3 : S128x300x2.BroadcastsInDim S128x1x300x2 (![0, 2, 3] : Fin 3 → Fin S128x1x300x2.rank)
  bcast_S128x900x1x2_S128x900x300x2_0_1_2_3 : S128x900x1x2.BroadcastsInDim S128x900x300x2 (![0, 1, 2, 3] : Fin 4 → Fin S128x900x300x2.rank)
  bcast_S128x1x300x2_S128x900x300x2_0_1_2_3 : S128x1x300x2.BroadcastsInDim S128x900x300x2 (![0, 1, 2, 3] : Fin 4 → Fin S128x900x300x2.rank)
  slices_S128x900x4_S128x900x2_0_0_2 : S128x900x4.Slices ![0, 0, 2] S128x900x2
  slices_S128x300x4_S128x300x2_0_0_2 : S128x300x4.Slices ![0, 0, 2] S128x300x2
  bcast_S_S128x900x300x2 : S_.BroadcastsInDim S128x900x300x2 (![] : Fin 0 → Fin S128x900x300x2.rank)
  slices_S128x900x300x2_S128x900x300x1_0_0_0_0 : S128x900x300x2.Slices ![0, 0, 0, 0] S128x900x300x1
  shapeCasts_S128x900x300x1_S128x900x300 : S128x900x300x1.ShapeCasts S128x900x300
  slices_S128x900x300x2_S128x900x300x1_0_0_0_1 : S128x900x300x2.Slices ![0, 0, 0, 1] S128x900x300x1
  bcast_S128x900x1_S128x900x300_0_1_2 : S128x900x1.BroadcastsInDim S128x900x300 (![0, 1, 2] : Fin 3 → Fin S128x900x300.rank)
  bcast_S128x1x300_S128x900x300_0_1_2 : S128x1x300.BroadcastsInDim S128x900x300 (![0, 1, 2] : Fin 3 → Fin S128x900x300.rank)
  gather_S128x900x92_S128x300x1_S128x900x300_1_2_0_0_2_2_19001_wf : GatherDims.WF S128x900x92 S128x300x1 S128x900x300 [1] [2] [0] [2] [0] 2 ![1, 900, 1]

variable [Facts₀]

def gather_S128x900x92_S128x300x1_S128x900x300_1_2_0_0_2_2_19001 : GatherDims S128x900x92 S128x300x1 S128x900x300 where
  offsetDims := [1]
  collapsedSliceDims := [2]
  operandBatchingDims := [0]
  startIndicesBatchingDims := [0]
  startIndexMap := [2]
  indexVectorDim := 2
  sliceSizes := ![1, 900, 1]
  wf := gather_S128x900x92_S128x300x1_S128x900x300_1_2_0_0_2_2_19001_wf

class Facts : Prop extends Facts₀ where

variable [Facts]
-- ==== Proof.Spec.lean ====
/-
  The matching cost, as one function of the four argument arrays.

  For batch `b`, query `q`, target `n` the cost is
      5 · L1(b,q,n) + 1 · (0 − p(b,q,label(b,n))) + 2 · (0 − GIoU(b,q,n)),
  where `p(b,q,·)` is the softmax of the logit row (b,q): `exp (x_c − M) / Σ_c' exp (x_c' − M)`, `M` the row's maximum
  (folded from −∞); L1 is the ℓ¹ distance between the predicted box (cx, cy, w, h) and the target box (x0, y0, x1, y1)
  rewritten as centre and size, `|cx − ½(x0+x1)| + |cy − ½(y0+y1)| + |w − (x1−x0)| + |h − (y1−y0)|`; and GIoU is the
  generalized intersection over union of the predicted box's corners (cx ∓ ½w, cy ∓ ½h) with the target's:
  `inter/union − (hull − union)/hull`. Everything is over the extended reals with the conventions of the ideal float
  instance (`Ideal.div`, `Ideal.exp`, `max`, `min`); nothing here needs finiteness.
-/
import Idealize.ShloMosaic.PureOps.Ideal
import Idealize.ShloMosaic.Lib.ValueIdx

noncomputable section

open scoped BigOperators

namespace Cert.MatchCost

open Idealize.ShloMosaic Idealize.ShloMosaic.ValueIdx

/-- The f32 literals the two programs carry, as extended reals: 0, ½, 1, 2, 5 and −∞. -/
abbrev zero32 : EReal := Ideal.ofBits .f32 0x00000000#32
abbrev half32 : EReal := Ideal.ofBits .f32 0x3F000000#32
abbrev one32 : EReal := Ideal.ofBits .f32 0x3F800000#32
abbrev two32 : EReal := Ideal.ofBits .f32 0x40000000#32
abbrev five32 : EReal := Ideal.ofBits .f32 0x40A00000#32
abbrev ninf32 : EReal := Ideal.ofBits .f32 0xFF800000#32

/-- The absolute value as the ideal float instance reads it. -/
abbrev eabs (a : EReal) : EReal := max a (-a)

/-- A logit row's maximum: the fold of `max` from −∞ over the 92 classes. -/
def rowMax (row : Fin 92 → EReal) : EReal := (Finset.univ : Finset (Fin 92)).fold max ninf32 row

/-- The softmax of a logit row at class `c`. -/
def rowProb (row : Fin 92 → EReal) (c : Fin 92) : EReal :=
  Ideal.div (Ideal.exp (row c - rowMax row)) (∑ k : Fin 92, Ideal.exp (row k - rowMax row))

/-- The ℓ¹ distance of the predicted box (centre, size) to the target box (corners) taken as centre and size. -/
def l1 (cx cy w h x0 y0 x1 y1 : EReal) : EReal :=
  eabs (cx - half32 * (x0 + x1)) + eabs (cy - half32 * (y0 + y1)) + eabs (w - (x1 - x0)) + eabs (h - (y1 - y0))

/-- The predicted box's area from its corners `c ∓ ½s`. -/
def areaP (cx cy w h : EReal) : EReal :=
  ((cx + half32 * w) - (cx - half32 * w)) * ((cy + half32 * h) - (cy - half32 * h))

/-- The target box's area. -/
def areaT (x0 y0 x1 y1 : EReal) : EReal := (x1 - x0) * (y1 - y0)

/-- The intersection's area: the overlap of the two intervals on each axis, clipped at 0. -/
def inter (cx cy w h x0 y0 x1 y1 : EReal) : EReal :=
  max (min (cx + half32 * w) x1 - max (cx - half32 * w) x0) zero32
    * max (min (cy + half32 * h) y1 - max (cy - half32 * h) y0) zero32

/-- The union's area. -/
def union (cx cy w h x0 y0 x1 y1 : EReal) : EReal :=
  (areaP cx cy w h + areaT x0 y0 x1 y1) - inter cx cy w h x0 y0 x1 y1

/-- The enclosing box's area: the hull of the two intervals on each axis, clipped at 0. -/
def hull (cx cy w h x0 y0 x1 y1 : EReal) : EReal :=
  max (max (cx + half32 * w) x1 - min (cx - half32 * w) x0) zero32
    * max (max (cy + half32 * h) y1 - min (cy - half32 * h) y0) zero32

/-- The generalized intersection over union. -/
def giou (cx cy w h x0 y0 x1 y1 : EReal) : EReal :=
  Ideal.div (inter cx cy w h x0 y0 x1 y1) (union cx cy w h x0 y0 x1 y1)
    - Ideal.div (hull cx cy w h x0 y0 x1 y1 - union cx cy w h x0 y0 x1 y1) (hull cx cy w h x0 y0 x1 y1)

/-- The cost of one (query, target) pair from the eight box coordinates and the class term. -/
def cost (cx cy w h x0 y0 x1 y1 cls : EReal) : EReal :=
  (five32 * l1 cx cy w h x0 y0 x1 y1 + one32 * cls) + two32 * (zero32 - giou cx cy w h x0 y0 x1 y1)

/-- A label word as a class: its value when below 92 (the remainder otherwise, never used under the label range). -/
def cls92 (w : BitVec 32) : Fin 92 := ⟨w.toNat % 92, Nat.mod_lt _ (by decide)⟩

/-- The class probability the pair (b, q, n) reads: the softmax of logit row (b, q) at target n's label. -/
def prob (L : (⟨3, ![128, 900, 92]⟩ : Shape).Idx → EReal) (lab : (⟨2, ![128, 300]⟩ : Shape).Idx → BitVec 32)
    (b : Fin 128) (q : Fin 900) (n : Fin 300) : EReal :=
  rowProb (fun c => L (ix3 b q c)) (cls92 (lab (ix2 b n)))

/-- THE RESULT ARRAY: the cost of every (batch, query, target) triple. -/
def G (L : (⟨3, ![128, 900, 92]⟩ : Shape).Idx → EReal) (PB : (⟨3, ![128, 900, 4]⟩ : Shape).Idx → EReal)
    (TB : (⟨3, ![128, 300, 4]⟩ : Shape).Idx → EReal) (lab : (⟨2, ![128, 300]⟩ : Shape).Idx → BitVec 32) :
    (⟨3, ![128, 900, 300]⟩ : Shape).Idx → EReal := fun i =>
  cost (PB (ix3 (i 0) (i 1) (0 : Fin 4))) (PB (ix3 (i 0) (i 1) (1 : Fin 4))) (PB (ix3 (i 0) (i 1) (2 : Fin 4))) (PB (ix3 (i 0) (i 1) (3 : Fin 4)))
    (TB (ix3 (i 0) (i 2) (0 : Fin 4))) (TB (ix3 (i 0) (i 2) (1 : Fin 4))) (TB (ix3 (i 0) (i 2) (2 : Fin 4))) (TB (ix3 (i 0) (i 2) (3 : Fin 4)))
    (zero32 - prob L lab (i 0) (i 1) (i 2))

end Cert.MatchCost

end
-- ==== Proof.LabelRange.lean ====
/-
  The label range read back from the precondition. The precondition's last conjunct is `jnp.all` of the mask
  `0 ≤ label ∧ label < 92` (signed comparisons against the two constants); when the whole predicate is 1 every label word,
  read as a natural number, is below 92.
-/
import proofs.«414171_j77472620085888_1_alg».proof.Pre_finite_inputs
import Idealize.ShloMosaic.Lib.ReduceAll
import Idealize.ShloMosaic.Lib.ValueIdx

noncomputable section

namespace Cert.LabelRange

open Idealize.ShloMosaic Cert.Pre_finite_inputs

instance : Subsingleton S_.Idx := ⟨fun _ _ => funext fun d => d.elim0⟩

/-- A word that is signed-nonnegative and signed-below 92 is, as a natural number, below 92. -/
theorem toNat_lt_of_signed (w : BitVec 32) (h0 : (0#32).toInt ≤ w.toInt) (h1 : w.toInt < (92#32).toInt) : w.toNat < 92 := by
  have e0 : (0#32 : BitVec 32).toInt = 0 := by decide
  have e1 : (92#32 : BitVec 32).toInt = 92 := by decide
  rw [e0] at h0; rw [e1] at h1
  have := BitVec.toInt_eq_toNat_cond w
  have hw := w.isLt
  split at this <;> omega

/-- Under the precondition every label is a class index: below 92 as a natural number. -/
theorem toNat_lt_of_pre {F : FTy → Type} [FloatOps F] [Facts]
    (a0 : FVec F S128x900x92 .f32) (a1 : FVec F S128x900x4 .f32) (a2 : FVec F S128x300x4 .f32) (a3 : IVec S128x300 32)
    (h : fn (F := F) a0 a1 a2 a3 = fun _ => 1#1) (j : S128x300.Idx) : (a3 j).toNat < 92 := by
  have h0 := congrFun h ValueIdx.ix0
  dsimp only [fn, fn_part1] at h0
  obtain ⟨_, h19⟩ := IntOp.andi_eq_one.1 h0
  have hj := Host.reduce_andi_all _ _ _ _ _ h19 j
  obtain ⟨hge, hlt⟩ := IntOp.andi_eq_one.1 hj
  exact toNat_lt_of_signed _ (IntOp.cmpi_sge.1 hge) (IntOp.cmpi_slt.1 hlt)

end Cert.LabelRange

end
-- ==== Proof.KerPayload.lean ====
/-
  The body's stored value at one (query, target) pair. The one store of the body writes, at block index (0, q, n),
  a tree of pointwise operations over column vectors (functions of the query: the predicted box's coordinates and its
  corners cx ∓ ½w, cy ∓ ½h, its area), row vectors (functions of the target: its corners, centre and size, its area), both
  broadcast over the 900 × 300 rectangle, and the class term. Read at (q, n) every broadcast is its vector at q or at n,
  every slice a column of the box block or a row of the transposed target block, and the tree is the specification's
  `cost` of the eight coordinates and the class term.
-/
import proofs.«414171_j77472620085888_1_alg».proof.Proof.Gen.KernelIdeal.Skeleton
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Cert.MatchCost Idealize.ShloMosaic Idealize.ShloMosaic.ValueIdx

/-! ## Layout operations read at an index -/

/-- A column vector broadcast over the rectangle reads, at (q, n), its entry at row q. -/
theorem bcast_col (v : FVec Ideal S900x1 .f32) (q : Fin 900) (n : Fin 300) :
    broadcastTo S900x300 v broadcasts_S900x1_S900x300 (ix2 q n) = v (ix2 q (0 : Fin 1)) :=
  broadcastTo_apply v _ _ _ (fun a => by match a with | ⟨0, _⟩ => rfl | ⟨1, _⟩ => rfl)

/-- A row vector broadcast over the rectangle reads, at (q, n), its entry at column n. -/
theorem bcast_row (v : FVec Ideal S1x300 .f32) (q : Fin 900) (n : Fin 300) :
    broadcastTo S900x300 v broadcasts_S1x300_S900x300 (ix2 q n) = v (ix2 (0 : Fin 1) n) :=
  broadcastTo_apply v _ _ _ (fun a => by match a with | ⟨0, _⟩ => rfl | ⟨1, _⟩ => rfl)

/-- The rectangle with a unit axis put in front reads, at (0, q, n), the rectangle at (q, n). -/
theorem cast_out (v : FVec Ideal S900x300 .f32) (q : Fin 900) (n : Fin 300) :
    shapeCast S1x900x300 v shapeCasts_S900x300_S1x900x300 (ix3 (0 : Fin 1) q n) = v (ix2 q n) :=
  shapeCast_ab_1ab_apply v _ _ _ _

/-- Column k of the box block: the slice at offset (0, k) of the block without its unit axis, read at (q, 0). -/
theorem col_slice (P0 : Vec Ideal S1x900x4 .f32) (k : Fin 4) (h : S900x4.Slices ![0, k.val] S900x1) (q : Fin 900) :
    extractStridedSlice S900x1 ![0, k.val] (k0_pay2 P0) h (ix2 q (0 : Fin 1)) = P0 (ix3 (0 : Fin 1) q k) := by
  unfold k0_pay2
  rw [extractStridedSlice_apply _ _ h _ (ix2 q k) (fun a => by match a with | ⟨0, _⟩ => simp | ⟨1, _⟩ => simp)]
  exact shapeCast_1ab_ab_apply P0 _ q k

/-- Row k of the transposed target block: the slice at offset (k, 0) of the block without its unit axis, read at (0, n). -/
theorem row_slice (P1 : Vec Ideal S1x4x300 .f32) (k : Fin 4) (h : S4x300.Slices ![k.val, 0] S1x300) (n : Fin 300) :
    extractStridedSlice S1x300 ![k.val, 0] (k0_pay3 P1) h (ix2 (0 : Fin 1) n) = P1 (ix3 (0 : Fin 1) k n) := by
  unfold k0_pay3
  rw [extractStridedSlice_apply _ _ h _ (ix2 k n) (fun a => by match a with | ⟨0, _⟩ => simp | ⟨1, _⟩ => simp)]
  exact shapeCast_1ab_ab_apply P1 _ k n

/-- The four columns of the box block at row q: centre x, centre y, width, height. -/
theorem pay5_at (P0 : Vec Ideal S1x900x4 .f32) (q : Fin 900) :
    k0_pay5 P0 (ix2 q (0 : Fin 1)) = P0 (ix3 (0 : Fin 1) q (0 : Fin 4)) := by
  unfold k0_pay5; exact col_slice P0 0 _ q
theorem pay6_at (P0 : Vec Ideal S1x900x4 .f32) (q : Fin 900) :
    k0_pay6 P0 (ix2 q (0 : Fin 1)) = P0 (ix3 (0 : Fin 1) q (1 : Fin 4)) := by
  unfold k0_pay6; exact col_slice P0 1 _ q
theorem pay7_at (P0 : Vec Ideal S1x900x4 .f32) (q : Fin 900) :
    k0_pay7 P0 (ix2 q (0 : Fin 1)) = P0 (ix3 (0 : Fin 1) q (2 : Fin 4)) := by
  unfold k0_pay7; exact col_slice P0 2 _ q
theorem pay8_at (P0 : Vec Ideal S1x900x4 .f32) (q : Fin 900) :
    k0_pay8 P0 (ix2 q (0 : Fin 1)) = P0 (ix3 (0 : Fin 1) q (3 : Fin 4)) := by
  unfold k0_pay8; exact col_slice P0 3 _ q

/-- The four rows of the transposed target block at column n: the corners x0, y0, x1, y1. -/
theorem pay9_at (P1 : Vec Ideal S1x4x300 .f32) (n : Fin 300) :
    k0_pay9 P1 (ix2 (0 : Fin 1) n) = P1 (ix3 (0 : Fin 1) (0 : Fin 4) n) := by
  unfold k0_pay9; exact row_slice P1 0 _ n
theorem pay10_at (P1 : Vec Ideal S1x4x300 .f32) (n : Fin 300) :
    k0_pay10 P1 (ix2 (0 : Fin 1) n) = P1 (ix3 (0 : Fin 1) (1 : Fin 4) n) := by
  unfold k0_pay10; exact row_slice P1 1 _ n
theorem pay11_at (P1 : Vec Ideal S1x4x300 .f32) (n : Fin 300) :
    k0_pay11 P1 (ix2 (0 : Fin 1) n) = P1 (ix3 (0 : Fin 1) (2 : Fin 4) n) := by
  unfold k0_pay11; exact row_slice P1 2 _ n
theorem pay12_at (P1 : Vec Ideal S1x4x300 .f32) (n : Fin 300) :
    k0_pay12 P1 (ix2 (0 : Fin 1) n) = P1 (ix3 (0 : Fin 1) (3 : Fin 4) n) := by
  unfold k0_pay12; exact row_slice P1 3 _ n

/-! ## Each payload at an index, over variable vectors -/

/-- The absolute value of a vector at an index: the larger of the entry and its negation. -/
theorem absf_at {s : Shape} (v : FVec Ideal s .f32) (i : s.Idx) : absf v i = eabs (v i) := rfl

/-- The target's centre on each axis: half the sum of its two corners. -/
theorem pay13_at (P1 : Vec Ideal S1x4x300 .f32) (i : S1x300.Idx) :
    k0_pay13 P1 i = half32 * (k0_pay9 P1 i + k0_pay11 P1 i) := rfl
theorem pay14_at (P1 : Vec Ideal S1x4x300 .f32) (i : S1x300.Idx) :
    k0_pay14 P1 i = half32 * (k0_pay10 P1 i + k0_pay12 P1 i) := rfl

/-- The predicted box's corners: centre ∓ half the size. -/
theorem pay16_at (c s : FVec Ideal S900x1 .f32) (i : S900x1.Idx) : k0_pay16 c s i = c i - half32 * s i := rfl
theorem pay17_at (c s : FVec Ideal S900x1 .f32) (i : S900x1.Idx) : k0_pay17 c s i = c i - half32 * s i := rfl
theorem pay18_at (c s : FVec Ideal S900x1 .f32) (i : S900x1.Idx) : k0_pay18 c s i = c i + half32 * s i := rfl
theorem pay19_at (c s : FVec Ideal S900x1 .f32) (i : S900x1.Idx) : k0_pay19 c s i = c i + half32 * s i := rfl

/-- The predicted box's area from its corners. -/
theorem pay20_at (cx cy w h : FVec Ideal S900x1 .f32) (i : S900x1.Idx) :
    k0_pay20 cx cy w h i = areaP (cx i) (cy i) (w i) (h i) := rfl

/-- The target box's area. -/
theorem pay21_at (x0 y0 x1 y1 : FVec Ideal S1x300 .f32) (i : S1x300.Idx) :
    k0_pay21 x0 y0 x1 y1 i = areaT (x0 i) (y0 i) (x1 i) (y1 i) := rfl

/-- The ℓ¹ distance at (q, n): the four absolute differences of the predicted box's centre and size from the target's
    centre and size, added from the left. -/
theorem pay15_at (v27 v28 v29 v30 : FVec Ideal S900x1 .f32) (v31 v32 v33 v34 v37 v40 : FVec Ideal S1x300 .f32)
    (q : Fin 900) (n : Fin 300) :
    k0_pay15 v27 v28 v29 v30 v31 v32 v33 v34 v37 v40 (ix2 q n)
      = eabs (v27 (ix2 q (0 : Fin 1)) - v37 (ix2 (0 : Fin 1) n)) + eabs (v28 (ix2 q (0 : Fin 1)) - v40 (ix2 (0 : Fin 1) n))
          + eabs (v29 (ix2 q (0 : Fin 1)) - (v33 (ix2 (0 : Fin 1) n) - v31 (ix2 (0 : Fin 1) n)))
          + eabs (v30 (ix2 q (0 : Fin 1)) - (v34 (ix2 (0 : Fin 1) n) - v32 (ix2 (0 : Fin 1) n))) := by
  unfold k0_pay15
  simp only [addf_apply, subf_apply, absf_at, bcast_col, bcast_row]

/-- The overlap of the two boxes on the x axis at (q, n), clipped at 0. -/
theorem pay22_at (v27 v29 : FVec Ideal S900x1 .f32) (v31 v33 : FVec Ideal S1x300 .f32) (q : Fin 900) (n : Fin 300) :
    k0_pay22 v27 v29 v31 v33 (ix2 q n)
      = max (min (k0_pay18 v27 v29 (ix2 q (0 : Fin 1))) (v33 (ix2 (0 : Fin 1) n))
          - max (k0_pay16 v27 v29 (ix2 q (0 : Fin 1))) (v31 (ix2 (0 : Fin 1) n))) zero32 := by
  unfold k0_pay22
  simp only [subf_apply, maximumf_apply, minimumf_apply, broadcast_apply, bcast_col, bcast_row]
  rfl

/-- The overlap of the two boxes on the y axis at (q, n), not yet clipped. -/
theorem pay23_at (v28 v30 : FVec Ideal S900x1 .f32) (v32 v34 : FVec Ideal S1x300 .f32) (q : Fin 900) (n : Fin 300) :
    k0_pay23 v28 v30 v32 v34 (ix2 q n)
      = min (k0_pay19 v28 v30 (ix2 q (0 : Fin 1))) (v34 (ix2 (0 : Fin 1) n))
          - max (k0_pay17 v28 v30 (ix2 q (0 : Fin 1))) (v32 (ix2 (0 : Fin 1) n)) := by
  unfold k0_pay23
  simp only [subf_apply, maximumf_apply, minimumf_apply, bcast_col, bcast_row]

/-! ## The store, and its value as the cost -/

/-- The stored tree as a function of the scalars it reads at (q, n): the class term c, the ℓ¹ distance d, the clipped
    x overlap ox and the unclipped y overlap oy, the predicted box's corners l t r b and area aP, the target's corners
    and area aT. -/
def stored (c d ox oy l t r b aP x0 y0 x1 y1 aT : EReal) : EReal :=
  (five32 * d + one32 * c)
    + two32 * (zero32
        - (Ideal.div (ox * max oy zero32) ((aP + aT) - ox * max oy zero32)
            - Ideal.div
                (max (max r x1 - min l x0) zero32 * max (max b y1 - min t y0) zero32 - ((aP + aT) - ox * max oy zero32))
                (max (max r x1 - min l x0) zero32 * max (max b y1 - min t y0) zero32)))

/-- The body's store at (0, q, n), over variable vectors: the tree above of the rectangle vectors at (q, n), the column
    vectors at q and the row vectors at n. -/
theorem pay1_at (v26 : FVec Ideal S900x300 .f32) (v31 v32 v33 v34 : FVec Ideal S1x300 .f32) (v61 : FVec Ideal S900x300 .f32)
    (v64 v67 v70 v73 v76 : FVec Ideal S900x1 .f32) (v79 : FVec Ideal S1x300 .f32) (v94 v95 : FVec Ideal S900x300 .f32)
    (q : Fin 900) (n : Fin 300) :
    k0_pay1 v26 v31 v32 v33 v34 v61 v64 v67 v70 v73 v76 v79 v94 v95 (ix3 (0 : Fin 1) q n)
      = stored (v26 (ix2 q n)) (v61 (ix2 q n)) (v94 (ix2 q n)) (v95 (ix2 q n))
          (v64 (ix2 q (0 : Fin 1))) (v67 (ix2 q (0 : Fin 1))) (v70 (ix2 q (0 : Fin 1))) (v73 (ix2 q (0 : Fin 1)))
          (v76 (ix2 q (0 : Fin 1)))
          (v31 (ix2 (0 : Fin 1) n)) (v32 (ix2 (0 : Fin 1) n)) (v33 (ix2 (0 : Fin 1) n)) (v34 (ix2 (0 : Fin 1) n))
          (v79 (ix2 (0 : Fin 1) n)) := by
  unfold k0_pay1
  simp only [cast_out, addf_apply, subf_apply, mulf_apply, divf_apply, maximumf_apply, minimumf_apply, broadcast_apply,
    bcast_col, bcast_row]
  rfl

/-- The stored value at (0, q, n) is the cost of query `q` against target `n`: the predicted box is row `q` of the box
    block `P0`, the target box column `n` of the transposed block `P1`, the class term the body's own at (q, n). -/
theorem payload_cost (P0 : Vec Ideal S1x900x4 .f32) (P1 : Vec Ideal S1x4x300 .f32) (P2 : Vec Ideal S1x900x92 .f32)
    (P3 : Vec Ideal S1x1x300 .i32) (q : Fin 900) (n : Fin 300) :
    k0_pay1 (k0_pay4 P2 P3) (k0_pay9 P1) (k0_pay10 P1) (k0_pay11 P1) (k0_pay12 P1) (k0_pay15 (k0_pay5 P0) (k0_pay6 P0) (k0_pay7 P0) (k0_pay8 P0) (k0_pay9 P1) (k0_pay10 P1) (k0_pay11 P1) (k0_pay12 P1) (k0_pay13 P1) (k0_pay14 P1)) (k0_pay16 (k0_pay5 P0) (k0_pay7 P0)) (k0_pay17 (k0_pay6 P0) (k0_pay8 P0)) (k0_pay18 (k0_pay5 P0) (k0_pay7 P0)) (k0_pay19 (k0_pay6 P0) (k0_pay8 P0)) (k0_pay20 (k0_pay5 P0) (k0_pay6 P0) (k0_pay7 P0) (k0_pay8 P0)) (k0_pay21 (k0_pay9 P1) (k0_pay10 P1) (k0_pay11 P1) (k0_pay12 P1)) (k0_pay22 (k0_pay5 P0) (k0_pay7 P0) (k0_pay9 P1) (k0_pay11 P1)) (k0_pay23 (k0_pay6 P0) (k0_pay8 P0) (k0_pay10 P1) (k0_pay12 P1)) (ix3 (0 : Fin 1) q n)
      = cost (P0 (ix3 (0 : Fin 1) q (0 : Fin 4))) (P0 (ix3 (0 : Fin 1) q (1 : Fin 4))) (P0 (ix3 (0 : Fin 1) q (2 : Fin 4))) (P0 (ix3 (0 : Fin 1) q (3 : Fin 4)))
          (P1 (ix3 (0 : Fin 1) (0 : Fin 4) n)) (P1 (ix3 (0 : Fin 1) (1 : Fin 4) n)) (P1 (ix3 (0 : Fin 1) (2 : Fin 4) n)) (P1 (ix3 (0 : Fin 1) (3 : Fin 4) n))
          (k0_pay4 P2 P3 (ix2 q n)) := by
  rw [pay1_at, pay15_at, pay22_at, pay23_at, pay20_at, pay21_at, pay16_at, pay17_at, pay18_at, pay19_at, pay13_at, pay14_at,
    pay5_at, pay6_at, pay7_at, pay8_at, pay9_at, pay10_at, pay11_at, pay12_at]
  rfl

end Cert.KernelIdeal.Payload

end
-- ==== Proof.KerClass.lean ====
/-
  The kernel's class term at one (query, target) pair. The body takes the softmax of the logit block's row `q`
  (maximum folded from −∞, exponentials, their sum, the quotient), builds the one-hot column of target `n`'s label
  (`iota = label` widened to 0/1), contracts the two over the 92 classes into a zero accumulator and subtracts the
  result from 0. When the label is a class index the contraction keeps exactly the label's term:
      0 − (0 + Σ_c p_c · [c = label]) = 0 − p_label.

  The steps, each its own lemma: a row's maximum and a row's sum are reductions over the class axis, whose source index
  over row `q` at class `k` is `(q, k)`; both come back as a column `[900, 1]` broadcast along the row, which reads the
  column at `(q, 0)`; the contraction has one shared axis, so its index is a class `c`, the left operand read at `(q, c)`
  and the right at `(c, n)`; the right operand there is 1 when `c`'s word is the label and 0 otherwise; and a sum against
  such a column, for a word below 92, is the summand at that word.
-/
import proofs.«414171_j77472620085888_1_alg».proof.Proof.Gen.KernelIdeal.Skeleton
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Affine

noncomputable section

open scoped BigOperators

namespace Cert.KernelIdeal.ClassTerm

open Cert.KernelIdeal Cert.KernelIdeal.Gen Cert.MatchCost Idealize.ShloMosaic Idealize.ShloMosaic.ValueIdx

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! The contraction's operand indices, axis by axis: the product is rows by columns over one shared axis. -/

/-- The left operand's row is the result's row. -/
theorem lhs_0 (j : S900x300.Idx) (k : dot_S900x92_S92x300_S900x300_1_0_0_1_n_n.contr.Idx) :
    (dot_S900x92_S92x300_S900x300_1_0_0_1_n_n.lhsIdx j k 0).val = (j 0).val := by
  unfold DotDims.lhsIdx
  rw [dif_neg (show ¬(0 : Fin S900x92.rank) ∈ dot_S900x92_S92x300_S900x300_1_0_0_1_n_n.lhsBatch by decide),
    dif_pos (show (0 : Fin S900x92.rank) ∈ dot_S900x92_S92x300_S900x300_1_0_0_1_n_n.lhsNonContracting by decide)]
  rfl

/-- The left operand's column is the contraction's coordinate. -/
theorem lhs_1 (j : S900x300.Idx) (k : dot_S900x92_S92x300_S900x300_1_0_0_1_n_n.contr.Idx) :
    (dot_S900x92_S92x300_S900x300_1_0_0_1_n_n.lhsIdx j k 1).val = (k ⟨0, by decide⟩).val :=
  DotDims.lhsIdx_val_of_single (d := dot_S900x92_S92x300_S900x300_1_0_0_1_n_n) (cl := 1) rfl j k

/-- The right operand's row is the contraction's coordinate. -/
theorem rhs_0 (j : S900x300.Idx) (k : dot_S900x92_S92x300_S900x300_1_0_0_1_n_n.contr.Idx) :
    (dot_S900x92_S92x300_S900x300_1_0_0_1_n_n.rhsIdx j k 0).val = (k ⟨0, by decide⟩).val :=
  DotDims.rhsIdx_val_of_single (d := dot_S900x92_S92x300_S900x300_1_0_0_1_n_n) (cr := 0) rfl j k

/-- The right operand's column is the result's column. -/
theorem rhs_1 (j : S900x300.Idx) (k : dot_S900x92_S92x300_S900x300_1_0_0_1_n_n.contr.Idx) :
    (dot_S900x92_S92x300_S900x300_1_0_0_1_n_n.rhsIdx j k 1).val = (j 1).val := by
  unfold DotDims.rhsIdx
  rw [dif_neg (show ¬(1 : Fin S92x300.rank) ∈ dot_S900x92_S92x300_S900x300_1_0_0_1_n_n.rhsBatch by decide),
    dif_pos (show (1 : Fin S92x300.rank) ∈ dot_S900x92_S92x300_S900x300_1_0_0_1_n_n.rhsNonContracting by decide)]
  rfl

/-! The softmax of row `q`: the row's maximum and the row's sum of exponentials, each a reduction over the class axis. -/

/-- The reduction's source index over result row `q` at class `k` is `(q, k)`. -/
theorem lift_row (q : Fin 900) (k : Fin 92) : reduces_S900x92_S900.lift (ix1 q) k = ix2 q k := by
  funext a
  match a with
  | ⟨0, _⟩ => exact Fin.ext rfl
  | ⟨1, _⟩ => exact Fin.ext rfl

/-- The maximum over the class axis, folded from −∞, at row `q`. -/
theorem rowMax_apply (v1 : FVec Ideal S900x92 .f32) (q : Fin 900) :
    multiReduction (F := Ideal) .maximumf [1] S900 v1 0xFF800000#32 reduces_S900x92_S900 (.inl rfl) rfl (ix1 q)
      = rowMax (fun c => v1 (ix2 q c)) := by
  refine (Ideal.multiReduction_maximumf_single v1 0xFF800000#32 reduces_S900x92_S900 (.inl rfl) rfl (ix1 q)).trans ?_
  show (Finset.univ : Finset (Fin 92)).fold max ninf32 (fun k => v1 (reduces_S900x92_S900.lift (ix1 q) k)) = _
  unfold rowMax
  exact congrArg (fun f => (Finset.univ : Finset (Fin 92)).fold max ninf32 f) (funext fun k => congrArg v1 (lift_row q k))

/-- The sum over the class axis, from the zero accumulator, at row `q`. -/
theorem rowSum_apply (v12 : FVec Ideal S900x92 .f32) (q : Fin 900) :
    multiReduction (F := Ideal) .add [1] S900 v12 0x00000000#32 reduces_S900x92_S900 (.inl rfl) rfl (ix1 q)
      = ∑ k : Fin 92, v12 (ix2 q k) := by
  refine (Ideal.multiReduction_add_single v12 0x00000000#32 reduces_S900x92_S900 (.inl rfl) rfl (ix1 q)).trans ?_
  show ∑ k : Fin 92, v12 (reduces_S900x92_S900.lift (ix1 q) k) = _
  exact Finset.sum_congr rfl fun k _ => congrArg v12 (lift_row q k)

/-- The exponentials: each logit less its row's maximum (the maximum kept as a column and broadcast back along the row). -/
theorem exps_apply (v1 : FVec Ideal S900x92 .f32) (q : Fin 900) (c : Fin 92) :
    exp (subf v1 (broadcastTo S900x92 (shapeCast S900x1
        (multiReduction (F := Ideal) .maximumf [1] S900 v1 0xFF800000#32 reduces_S900x92_S900 (.inl rfl) rfl)
        shapeCasts_S900_S900x1) broadcasts_S900x1_S900x92)) (ix2 q c)
      = Ideal.exp (v1 (ix2 q c) - rowMax (fun k => v1 (ix2 q k))) := by
  show Ideal.exp (v1 (ix2 q c) - broadcastTo S900x92 _ broadcasts_S900x1_S900x92 (ix2 q c)) = _
  rw [broadcastTo_a1_ab_apply, shapeCast_a_a1_apply, rowMax_apply]

/-- The quotient: each exponential over its row's sum (the sum kept as a column and broadcast back along the row). -/
theorem quot_apply (v12 : FVec Ideal S900x92 .f32) (q : Fin 900) (c : Fin 92) :
    divf v12 (broadcastTo S900x92 (shapeCast S900x1
        (multiReduction (F := Ideal) .add [1] S900 v12 0x00000000#32 reduces_S900x92_S900 (.inl rfl) rfl)
        shapeCasts_S900_S900x1) broadcasts_S900x1_S900x92) (ix2 q c)
      = Ideal.div (v12 (ix2 q c)) (∑ k : Fin 92, v12 (ix2 q k)) := by
  show Ideal.div (v12 (ix2 q c)) (broadcastTo S900x92 _ broadcasts_S900x1_S900x92 (ix2 q c)) = _
  rw [broadcastTo_a1_ab_apply, shapeCast_a_a1_apply, rowSum_apply]

/-! The contraction re-indexed by its one coordinate `c`: the left operand is read at `(q, c)`, the right at `(c, n)`. -/

/-- The left operand's index at result `(q, n)` and class `c`. -/
theorem lhsIdx_eq (q : Fin 900) (n : Fin 300) (c : Fin 92) :
    dot_S900x92_S92x300_S900x300_1_0_0_1_n_n.lhsIdx (ix2 q n)
        ((contrEquiv1 dot_S900x92_S92x300_S900x300_1_0_0_1_n_n 92 rfl rfl).symm c) = ix2 q c := by
  funext a
  match a with
  | ⟨0, _⟩ => exact Fin.ext (lhs_0 _ _)
  | ⟨1, _⟩ => exact Fin.ext ((lhs_1 _ _).trans (contrEquiv1_symm_val _ 92 rfl rfl c))

/-- The right operand's index at result `(q, n)` and class `c`. -/
theorem rhsIdx_eq (q : Fin 900) (n : Fin 300) (c : Fin 92) :
    dot_S900x92_S92x300_S900x300_1_0_0_1_n_n.rhsIdx (ix2 q n)
        ((contrEquiv1 dot_S900x92_S92x300_S900x300_1_0_0_1_n_n 92 rfl rfl).symm c) = ix2 c n := by
  funext a
  match a with
  | ⟨0, _⟩ => exact Fin.ext ((rhs_0 _ _).trans (contrEquiv1_symm_val _ 92 rfl rfl c))
  | ⟨1, _⟩ => exact Fin.ext (rhs_1 _ _)

/-! The one-hot column of a label: row `c` holds 1 when `c` is the label's word and 0 otherwise. -/

/-- The compare of the row number with the label, widened to a word and read as a number, at `(c, n)`. -/
theorem onehot_apply (v7 : IVec S1x300 32) (c : Fin 92) (n : Fin 300) :
    (truncf .bf16 (sitofp (F := Ideal) .f32 (extui 32 (cmpi .eq (iota .tc S92x300 32 [0] iota_S92x300_d0_w32)
        (broadcastTo S92x300 v7 broadcasts_S1x300_S92x300)) natLt_1_32)) bitsLt_bf16_f32 : FVec Ideal S92x300 .bf16) (ix2 c n)
      = if BitVec.ofNat 32 c.val = v7 (ix2 (0 : Fin 1) n) then (1 : EReal) else 0 := by
  show (((((IntOp.cmpi .eq (iota .tc S92x300 32 [0] iota_S92x300_d0_w32 (ix2 c n))
      (broadcastTo S92x300 v7 broadcasts_S1x300_S92x300 (ix2 c n))).setWidth 32).toInt : ℝ) : EReal)) = _
  rw [iota_single_apply, broadcastTo_1b_ab_apply]
  show ((((IntOp.cmpi .eq (BitVec.ofNat 32 c.val) (v7 (ix2 (0 : Fin 1) n))).setWidth 32).toInt : ℝ) : EReal) = _
  by_cases h : BitVec.ofNat 32 c.val = v7 (ix2 (0 : Fin 1) n)
  · rw [if_pos h, IntOp.cmpi_eq.mpr h]
    show (((1 : ℤ) : ℝ) : EReal) = 1
    rw [Int.cast_one, EReal.coe_one]
  · rw [if_neg h, eq_zero_of_ne_one (fun h1 => h (IntOp.cmpi_eq.mp h1))]
    show (((0 : ℤ) : ℝ) : EReal) = 0
    rw [Int.cast_zero, EReal.coe_zero]

/-- A sum against the one-hot column of a word below 92 keeps the word's own term. -/
theorem sum_onehot (f : Fin 92 → EReal) (w : BitVec 32) (hw : w.toNat < 92) :
    ∑ c : Fin 92, f c * (if BitVec.ofNat 32 c.val = w then (1 : EReal) else 0) = f (cls92 w) := by
  have hself : BitVec.ofNat 32 (cls92 w).val = w := by
    apply BitVec.eq_of_toNat_eq
    show (BitVec.ofNat 32 (w.toNat % 92)).toNat = w.toNat
    rw [BitVec.toNat_ofNat]; omega
  rw [Finset.sum_eq_single (cls92 w)]
  · rw [if_pos hself, mul_one]
  · intro c _ hc
    have hne : ¬BitVec.ofNat 32 c.val = w := by
      intro h
      apply hc
      apply Fin.ext
      show c.val = w.toNat % 92
      have hc92 := c.isLt
      rw [← h, BitVec.toNat_ofNat]; omega
    rw [if_neg hne, mul_zero]
  · intro h; exact absurd (Finset.mem_univ _) h

/-! The left operand: the softmax block, read at `(q, c)`. -/

/-- The quotient of the exponentials by their row sums, narrowed (the identity on extended reals), at `(q, c)`:
    the softmax of row `q` at class `c`. -/
theorem soft_apply (v1 : FVec Ideal S900x92 .f32) (q : Fin 900) (c : Fin 92) :
    (truncf .bf16
        (divf
          (exp (subf v1 (broadcastTo S900x92 (shapeCast S900x1
            (multiReduction (F := Ideal) .maximumf [1] S900 v1 0xFF800000#32 reduces_S900x92_S900 (.inl rfl) rfl)
            shapeCasts_S900_S900x1) broadcasts_S900x1_S900x92)))
          (broadcastTo S900x92 (shapeCast S900x1
            (multiReduction (F := Ideal) .add [1] S900
              (exp (subf v1 (broadcastTo S900x92 (shapeCast S900x1
                (multiReduction (F := Ideal) .maximumf [1] S900 v1 0xFF800000#32 reduces_S900x92_S900 (.inl rfl) rfl)
                shapeCasts_S900_S900x1) broadcasts_S900x1_S900x92)))
              0x00000000#32 reduces_S900x92_S900 (.inl rfl) rfl)
            shapeCasts_S900_S900x1) broadcasts_S900x1_S900x92))
        bitsLt_bf16_f32 : FVec Ideal S900x92 .bf16) (ix2 q c)
      = rowProb (fun k => v1 (ix2 q k)) c := by
  refine (quot_apply _ q c).trans ?_
  unfold rowProb
  rw [exps_apply v1 q c]
  exact congrArg (Ideal.div _) (Finset.sum_congr rfl fun k _ => exps_apply v1 q k)

/-- The class term the body computes from the logit block `P2` and the label block `P3`, at query `q` and target `n`,
    when target `n`'s label is a class index: 0 minus the softmax of row `q` at that label. -/
theorem classTerm_apply (P2 : Vec Ideal S1x900x92 .f32) (P3 : Vec Ideal S1x1x300 .i32) (q : Fin 900) (n : Fin 300)
    (hl : (P3 (ix3 (0 : Fin 1) (0 : Fin 1) n)).toNat < 92) :
    k0_pay4 (F := Ideal) P2 P3 (ix2 q n)
      = zero32 - rowProb (fun c => P2 (ix3 (0 : Fin 1) q c)) (cls92 (P3 (ix3 (0 : Fin 1) (0 : Fin 1) n))) := by
  unfold k0_pay4
  refine congrArg (fun x : EReal => zero32 - x) ?_
  refine (Ideal.matmul_constant_zero_apply dot_S900x92_S92x300_S900x300_1_0_0_1_n_n none _ _ (ix2 q n)).trans ?_
  rw [← Equiv.sum_comp (contrEquiv1 dot_S900x92_S92x300_S900x300_1_0_0_1_n_n 92 rfl rfl).symm]
  refine (Finset.sum_congr rfl fun c _ => ?_).trans
    (sum_onehot (fun c => rowProb (fun k => P2 (ix3 (0 : Fin 1) q k)) c) (P3 (ix3 (0 : Fin 1) (0 : Fin 1) n)) hl)
  rw [lhsIdx_eq q n c, rhsIdx_eq q n c]
  refine congrArg₂ (· * ·) ?_ ?_
  · refine (soft_apply _ q c).trans ?_
    exact congrArg (fun row : Fin 92 → EReal => rowProb row c)
      (funext fun k => shapeCast_1ab_ab_apply P2 shapeCasts_S1x900x92_S900x92 q k)
  · refine (onehot_apply _ c n).trans ?_
    rw [shapeCast_1ab_ab_apply P3 shapeCasts_S1x1x300_S1x300 (0 : Fin 1) n]

end Cert.KernelIdeal.ClassTerm

end
-- ==== Proof.KerArrays.lean ====
/-
  The two arrays the host prepares before the launch, read at an index: the target boxes transposed to [128, 4, 300]
  (entry (b, k, n) is the argument's (b, n, k)) and the labels reshaped to [128, 1, 300] (entry (b, 0, n) is the
  argument's (b, n)).
-/
import proofs.«414171_j77472620085888_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Arrays

open Cert.KernelIdeal Cert.KernelIdeal.Gen Idealize.ShloMosaic Idealize.ShloMosaic.ValueIdx Idealize.ShloMosaic.TcCoe Idealize.SL.Sem

variable {F : FTy → Type} [FloatOps F]
variable (m : (ℓ : Loc nD τ sig) → Buf (Elt F) ℓ)

/-- The transposed target boxes as the region finds them. -/
theorem V_tgt (c : Dev nD) :
    (V m c main_v1 : S128x4x300.Idx → Elt F .f32)
      = transpose S128x4x300 [0, 2, 1] (m ((c : Thread nD τ).loc main_arg2)) transposes_S128x300x4_S128x4x300_0_2_1 := by
  dsimp only [Gen.V, Gen.hostOps0]; after_results

/-- Entry (b, k, n) of the transposed array is the argument's (b, n, k). -/
theorem tgt_apply (c : Dev nD) (b : Fin 128) (k : Fin 4) (n : Fin 300) :
    (V m c main_v1 : S128x4x300.Idx → Elt F .f32) (ix3 b k n) = m ((c : Thread nD τ).loc main_arg2) (ix3 b n k) := by
  rw [V_tgt]
  exact transpose_apply _ _ _ _ _ (fun a => by match a with | ⟨0, _⟩ => rfl | ⟨1, _⟩ => rfl | ⟨2, _⟩ => rfl)

/-- The reshaped labels as the region finds them. -/
theorem V_lab (c : Dev nD) :
    (V m c main_v0 : S128x1x300.Idx → BitVec 32)
      = shapeCast S128x1x300 (m ((c : Thread nD τ).loc main_arg3)) shapeCasts_S128x300_S128x1x300 := by
  dsimp only [Gen.V, Gen.hostOps0]; after_results; rfl

/-- Entry (b, 0, n) of the reshaped labels is the argument's (b, n). -/
theorem lab_apply (c : Dev nD) (b : Fin 128) (n : Fin 300) :
    (V m c main_v0 : S128x1x300.Idx → BitVec 32) (ix3 b (0 : Fin 1) n) = m ((c : Thread nD τ).loc main_arg3) (ix2 b n) := by
  rw [V_lab]
  refine shapeCast_apply _ _ _ _ ?_
  show ((⟨2, ![128, 300]⟩ : Shape).rowMajor (ix2 b n)).val = ((⟨3, ![128, 1, 300]⟩ : Shape).rowMajor (ix3 b (0 : Fin 1) n)).val
  rw [Shape.rowMajor_val_two, Shape.rowMajor_val_three]
  show b.val * 300 + n.val = (b.val * 1 + 0) * 300 + n.val
  omega

end Cert.KernelIdeal.Arrays

end
-- ==== Proof.KerFinal.lean ====
/-
  The kernel's output array after the run is the specification's `G` of the argument arrays, when every label is a
  class index. Grid point `t` works on batch `t`: every window's block index there is (t, 0, 0), so the blocks the body
  loads are batch `t`'s logits, predicted boxes, transposed target boxes and labels, and the block it writes back is
  batch `t` of the output. Entry (0, q, n) of what it writes is the cost of query `q` against target `n` (the stored
  payload read at an index, with the class term the softmax at the label), which is `G` at (t, q, n); the 128 blocks
  cover the array.
-/
import proofs.«414171_j77472620085888_1_alg».proof.Proof.KernelValue
import proofs.«414171_j77472620085888_1_alg».proof.Proof.KerPayload
import proofs.«414171_j77472620085888_1_alg».proof.Proof.KerClass
import proofs.«414171_j77472620085888_1_alg».proof.Proof.KerArrays
import proofs.«414171_j77472620085888_1_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.ValueP Cert.KernelIdeal.Payload Cert.KernelIdeal.ClassTerm
  Cert.KernelIdeal.Arrays Cert.MatchCost Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: at point `t` every window's block index is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The batch a grid point works on. -/
abbrev batch (t : Fin cfg0.N) : Fin 128 := ⟨t.val, t.isLt⟩

/-- The logit block at point `t` is batch `t` of the logits. -/
theorem blk0 (c : Dev nD) (t : Fin cfg0.N) (q : Fin 900) (k : Fin 92) :
    iblk m c 0 t (ix3 (0 : Fin 1) q k) = m ((c : Thread nD τ).loc main_arg0) (ix3 (batch t) q k) := by
  show V m c main_arg0 (((cfg0.win 0).blk t).view.emb (ix3 (0 : Fin 1) q k)) = _
  rw [V_main_arg0]
  refine congrArg _ (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 900 + 1 * q.val = q.val; omega
  | ⟨2, _⟩ => show win0_0.index t (2 : Fin 3) * 92 + 1 * k.val = k.val; omega

/-- The predicted-box block at point `t` is batch `t` of the predicted boxes. -/
theorem blk1 (c : Dev nD) (t : Fin cfg0.N) (q : Fin 900) (k : Fin 4) :
    iblk m c 1 t (ix3 (0 : Fin 1) q k) = m ((c : Thread nD τ).loc main_arg1) (ix3 (batch t) q k) := by
  show V m c main_arg1 (((cfg0.win 1).blk t).view.emb (ix3 (0 : Fin 1) q k)) = _
  rw [V_main_arg1]
  refine congrArg _ (funext fun a => Fin.ext ?_)
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 900 + 1 * q.val = q.val; omega
  | ⟨2, _⟩ => show win0_1.index t (2 : Fin 3) * 4 + 1 * k.val = k.val; omega

/-- The transposed target block at point `t`, entry (0, k, n), is coordinate `k` of batch `t`'s target `n`. -/
theorem blk2 (c : Dev nD) (t : Fin cfg0.N) (k : Fin 4) (n : Fin 300) :
    iblk m c 2 t (ix3 (0 : Fin 1) k n) = m ((c : Thread nD τ).loc main_arg2) (ix3 (batch t) n k) := by
  show (V m c main_v1 : S128x4x300.Idx → Elt Ideal .f32) (((cfg0.win 2).blk t).view.emb (ix3 (0 : Fin 1) k n)) = _
  rw [← tgt_apply m c (batch t) k n]
  refine congrArg _ (funext fun a => Fin.ext ?_)
  obtain ⟨-, -, ⟨e0, e1, e2⟩, -⟩ := idx_facts t
  match a with
  | ⟨0, _⟩ => show win0_2.index t (0 : Fin 3) * 1 + 1 * 0 = t.val; omega
  | ⟨1, _⟩ => show win0_2.index t (1 : Fin 3) * 4 + 1 * k.val = k.val; omega
  | ⟨2, _⟩ => show win0_2.index t (2 : Fin 3) * 300 + 1 * n.val = n.val; omega

/-- The label block at point `t`, entry (0, 0, n), is batch `t`'s label of target `n`. -/
theorem blk3 (c : Dev nD) (t : Fin cfg0.N) (n : Fin 300) :
    iblk m c 3 t (ix3 (0 : Fin 1) (0 : Fin 1) n) = m ((c : Thread nD τ).loc main_arg3) (ix2 (batch t) n) := by
  show (V m c main_v0 : S128x1x300.Idx → BitVec 32) (((cfg0.win 3).blk t).view.emb (ix3 (0 : Fin 1) (0 : Fin 1) n)) = _
  rw [← lab_apply m c (batch t) n]
  refine congrArg _ (funext fun a => Fin.ext ?_)
  obtain ⟨-, -, -, ⟨e0, e1, e2⟩, -⟩ := idx_facts t
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 300 + 1 * n.val = n.val; omega

/-- Entry (0, q, n) of the output block at point `t` sits at (t, q, n) of the output array. -/
theorem emb4 (t : Fin cfg0.N) (q : Fin 900) (n : Fin 300) :
    ((cfg0.win 4).blk t).view.emb (ix3 (0 : Fin 1) q n) = ix3 (batch t) q n := by
  funext a; apply Fin.ext
  obtain ⟨-, -, -, -, ⟨e0, e1, e2⟩⟩ := idx_facts t
  match a with
  | ⟨0, _⟩ => show win0_4.index t (0 : Fin 3) * 1 + 1 * 0 = t.val; omega
  | ⟨1, _⟩ => show win0_4.index t (1 : Fin 3) * 900 + 1 * q.val = q.val; omega
  | ⟨2, _⟩ => show win0_4.index t (2 : Fin 3) * 300 + 1 * n.val = n.val; omega

/-- WHAT POINT `t` WRITES BACK is block `t` of `G` of the argument arrays, when every label is a class index. -/
theorem flushed_eq (c : Dev nD) (hlab : ∀ j : S128x300.Idx, (m ((c : Thread nD τ).loc main_arg3) j).toNat < 92) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2)) (m ((c : Thread nD τ).loc main_arg3))) := by
  rw [ValueP.flushed4]
  unfold out0_4
  rw [View.canon_unit_zero hz]
  simp only [View.ld_unit_zero (S := S1x900x92) hz, View.ld_unit_zero (S := S1x900x4) hz, View.ld_unit_zero (S := S1x4x300) hz,
    View.ld_unit_zero (S := S1x1x300) hz]
  funext j
  obtain ⟨q, n, rfl⟩ : ∃ (q : Fin 900) (n : Fin 300), j = ix3 (0 : Fin 1) q n := by
    refine ⟨j 1, j 2, ?_⟩
    funext a
    match a with
    | ⟨0, _⟩ => exact Fin.ext (by have h : (j 0).val < 1 := (j 0).isLt; show (j 0).val = 0; omega)
    | ⟨1, _⟩ => rfl
    | ⟨2, _⟩ => rfl
  refine (payload_cost (iblk m c 1 t) (iblk m c 2 t) (iblk m c 0 t) (iblk m c 3 t) q n).trans ?_
  have hl : (iblk m c 3 t (ix3 (0 : Fin 1) (0 : Fin 1) n)).toNat < 92 := by rw [blk3]; exact hlab _
  rw [classTerm_apply (iblk m c 0 t) (iblk m c 3 t) q n hl]
  show _ = G _ _ _ _ (((cfg0.win 4).blk t).view.emb (ix3 (0 : Fin 1) q n))
  rw [emb4]
  simp only [blk0, blk1, blk2, blk3]
  rfl

/-- An index of the output array is in point `t`'s block iff each coordinate is in the block's range on its axis. -/
theorem mem_blk (t : Fin cfg0.N) (i : S128x900x300.Idx) :
    i ∈ ((cfg0.win 4).blk t).view.set ↔ ∀ a : Fin 3, win0_4.index t a * S1x900x300.size a ≤ (i a).val ∧ (i a).val < win0_4.index t a * S1x900x300.size a + S1x900x300.size a := by
  show i ∈ ((View.whole main_v2).slice (win0_4.rect t)).set ↔ _
  rw [View.set_slice_whole, Rect.mem_set_unit]
  exact Iff.rfl

/-- Every index of the output array is in some point's block: index (b, q, n) in point `b`'s. -/
theorem cover (i : S128x900x300.Idx) : ∃ t : Fin cfg0.N, (cfg0.win 4).flush t = true ∧ i ∈ ((cfg0.win 4).blk t).view.set := by
  have h0 : (i 0).val < 128 := (i 0).isLt
  have h1 : (i 1).val < 900 := (i 1).isLt
  have h2 : (i 2).val < 300 := (i 2).isLt
  refine ⟨⟨(i 0).val, h0⟩, flush0_4 _, ?_⟩
  rw [mem_blk]
  obtain ⟨-, -, -, -, ⟨e0, e1, e2⟩⟩ := idx_facts ⟨(i 0).val, h0⟩
  intro a
  match a with
  | ⟨0, _⟩ => show win0_4.index ⟨(i 0).val, h0⟩ (0 : Fin 3) * 1 ≤ (i 0).val ∧ (i 0).val < win0_4.index ⟨(i 0).val, h0⟩ (0 : Fin 3) * 1 + 1; have e0' : win0_4.index ⟨(i 0).val, h0⟩ (0 : Fin 3) = (i 0).val := e0; omega
  | ⟨1, _⟩ => show win0_4.index ⟨(i 0).val, h0⟩ (1 : Fin 3) * 900 ≤ (i 1).val ∧ (i 1).val < win0_4.index ⟨(i 0).val, h0⟩ (1 : Fin 3) * 900 + 900; omega
  | ⟨2, _⟩ => show win0_4.index ⟨(i 0).val, h0⟩ (2 : Fin 3) * 300 ≤ (i 2).val ∧ (i 2).val < win0_4.index ⟨(i 0).val, h0⟩ (2 : Fin 3) * 300 + 300; omega

/-- THE OUTPUT ARRAY after the run is `G` of the argument arrays. -/
theorem final (c : Dev nD) (hlab : ∀ j : S128x300.Idx, (m ((c : Thread nD τ).loc main_arg3) j).toNat < 92) :
    (dats m 0 c).arrAt 4 cfg0.N
      = G (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c hlab t) cover

/-- The kernel's run with its result named: under the label range every weakly fair execution ends with the output
    array at `G` of the arguments and the arguments unchanged. -/
theorem run (hlab : ∀ (c : Dev nD) (j : S128x300.Idx), (m ((c : Thread nD τ).loc main_arg3) j).toNat < 92) :
    θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hlab c)), (h c).2⟩) (ValueP.run_blocks m ρ)

end Cert.KernelIdeal.Final

end
-- ==== Proof.RefClass.lean ====
/-
  The reference's class term at one (batch, query, target) triple. The reference takes the softmax of every logit row
  (the row's maximum from −∞, met once more with −∞; exponentials; their sum from 0; the quotient), looks the target's
  label up along the class axis (a negative label is first moved up by 92; a label outside 0..91 reads a fill value
  instead), and negates. When the label is a class index the lookup reads the softmax at that class:
      −(softmax(row (b,q)))_label.
-/
import proofs.«414171_j77472620085888_1_alg».proof.Proof.RefRead
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ReferenceIdeal.ClassTerm

open Cert.ReferenceIdeal Cert.ReferenceIdeal.ReadP Cert.MatchCost Idealize.ShloMosaic Idealize.ShloMosaic.ValueIdx

/-- The literal 0xFF800000 is −∞. -/
theorem ninf32_eq_bot : (Ideal.ofBits .f32 0xFF800000#32 : EReal) = ⊥ := by
  simp [Ideal.ofBits, Ideal.ieee]

/-- A reduced index (b, q) with class c put back on the last axis is (b, q, c). -/
theorem lift_ix3 (h : S128x900x92.Reduces [2] S128x900) (b : Fin 128) (q : Fin 900) (c : Fin 92) :
    h.lift (ix2 b q) c = ix3 b q c := by
  funext a; apply Fin.ext
  match a with
  | ⟨0, _⟩ => rfl
  | ⟨1, _⟩ => rfl
  | ⟨2, _⟩ => rfl

/-- The row maximum the reference takes is the fold of max from −∞ over the row. -/
theorem v0_apply (x0 : (⟨S128x900x92, .f32⟩ : BufTy).Contents (Elt Ideal)) (b : Fin 128) (q : Fin 900) :
    val_main_v0 (F := Ideal) x0 (ix2 b q) = rowMax (fun c => x0 (ix3 b q c)) := by
  unfold val_main_v0 rowMax
  refine (Host.reduce_eq_fold_single (FloatOps.maximumf (F := Ideal) (φ := .f32)) x0 _ Gen.reducesTo_S128x900x92_S128x900_d2 (by decide) Gen.h_S_ (ix2 b q)).trans ?_
  have hf : (x0 ∘ (by decide : S128x900x92.Reduces [2] S128x900).lift (ix2 b q)) = fun c : Fin 92 => x0 (ix3 b q c) :=
    funext fun c => congrArg x0 (lift_ix3 _ b q c)
  exact congrArg (fun f => Finset.fold max ninf32 f (Finset.univ : Finset (Fin 92))) hf

/-- The maximum the reference subtracts: the row maximum met once more with −∞, which changes nothing. -/
theorem v2_apply (x0 : (⟨S128x900x92, .f32⟩ : BufTy).Contents (Elt Ideal)) (b : Fin 128) (q : Fin 900) :
    val_main_v2 (F := Ideal) x0 (ix2 b q) = rowMax (fun c => x0 (ix3 b q c)) := by
  rw [val_main_v2_apply, val_main_v1_apply, val_main_cst_0_apply, v0_apply]
  show max (Ideal.ofBits .f32 0xFF800000#32 : EReal) _ = _
  rw [ninf32_eq_bot]
  exact bot_sup_eq _

/-- The shifted exponential at (b, q, c). -/
theorem v6_apply (x0 : (⟨S128x900x92, .f32⟩ : BufTy).Contents (Elt Ideal)) (b : Fin 128) (q : Fin 900) (c : Fin 92) :
    val_main_v6 (F := Ideal) x0 (ix3 b q c) = Ideal.exp (x0 (ix3 b q c) - rowMax (fun k => x0 (ix3 b q k))) := by
  rw [val_main_v6_apply, val_main_v5_apply, val_main_v4_apply, val_main_v3_apply]
  have e : idx_main_v3 (idx_main_v4 (ix3 b q c)) = ix2 b q := by
    funext a; apply Fin.ext
    match a with
    | ⟨0, _⟩ => rfl
    | ⟨1, _⟩ => rfl
  rw [e, v2_apply]
  rfl

/-- The row's sum of shifted exponentials. -/
theorem v7_apply (x0 : (⟨S128x900x92, .f32⟩ : BufTy).Contents (Elt Ideal)) (b : Fin 128) (q : Fin 900) :
    val_main_v7 (F := Ideal) x0 (ix2 b q)
      = ∑ k : Fin 92, Ideal.exp (x0 (ix3 b q k) - rowMax (fun c => x0 (ix3 b q c))) := by
  rw [val_main_v7_apply, val_main_cst_1_apply]
  have z : (FloatOps.ofBits (F := Ideal) .f32 0x00000000#32 : EReal) = 0 := Ideal.ofBits_zero_f32
  rw [z, zero_add]
  refine Finset.sum_congr rfl fun k _ => ?_
  have e : idx_main_v7 (ix2 b q) k = ix3 b q k := by
    funext a; apply Fin.ext
    match a with
    | ⟨0, _⟩ => rfl
    | ⟨1, _⟩ => rfl
    | ⟨2, _⟩ => rfl
  rw [e, v6_apply]

/-- The softmax at (b, q, c). -/
theorem v10_apply (x0 : (⟨S128x900x92, .f32⟩ : BufTy).Contents (Elt Ideal)) (b : Fin 128) (q : Fin 900) (c : Fin 92) :
    val_main_v10 (F := Ideal) x0 (ix3 b q c) = rowProb (fun k => x0 (ix3 b q k)) c := by
  rw [val_main_v10_apply, val_main_v9_apply, val_main_v8_apply]
  have e : idx_main_v8 (idx_main_v9 (ix3 b q c)) = ix2 b q := by
    funext a; apply Fin.ext
    match a with
    | ⟨0, _⟩ => rfl
    | ⟨1, _⟩ => rfl
  rw [e, v7_apply, v6_apply]
  rfl

/-- A label word below 92 reads the same signed as unsigned. -/
theorem toInt_of_lt {w : BitVec 32} (h : w.toNat < 92) : w.toInt = (w.toNat : Int) := by
  rw [BitVec.toInt_eq_toNat_cond]; split <;> omega

/-- The lookup's index at (b, n): the label itself when it is a class index (the wrap of negative labels does not fire). -/
theorem call0_v5_apply (x3 : (⟨S128x300, .i32⟩ : BufTy).Contents (Elt Ideal)) (b : Fin 128) (n : Fin 300)
    (hl : (x3 (ix2 b n)).toNat < 92) :
    val_main_call0_v5 (F := Ideal) x3 (ix3 b n (0 : Fin 1)) = x3 (ix2 b n) := by
  rw [val_main_call0_v5_apply]
  have e : idx_main_call0_v5 (ix3 b n (0 : Fin 1)) = ix3 b (0 : Fin 1) n := by
    have hb := b.isLt
    have hn := n.isLt
    funext a; apply Fin.ext
    match a with
    | ⟨0, _⟩ => show ((b.val * 300 + n.val) * 1 + 0) / 300 = b.val; omega
    | ⟨1, _⟩ => rfl
    | ⟨2, _⟩ => show ((b.val * 300 + n.val) * 1 + 0) % 300 = n.val; omega
  rw [e, val_main_call0_v4_apply, val_main_call0_v1_apply, val_main_v11_apply, val_main_call0_v0_apply,
    val_main_call0_c_apply]
  have e2 : idx_main_v11 (ix3 b (0 : Fin 1) n) = ix2 b n := by
    funext a; apply Fin.ext
    match a with
    | ⟨0, _⟩ => rfl
    | ⟨1, _⟩ => rfl
  rw [e2]
  have hz : IntOp.cmpi .slt (x3 (ix2 b n)) 0#32 = 0#1 := by
    refine eq_zero_of_ne_one fun h => ?_
    have h' := IntOp.cmpi_slt.1 h
    rw [toInt_of_lt hl] at h'
    have : (0#32 : BitVec 32).toInt = 0 := by decide
    omega
  rw [hz, select_zero]

/-- A reduced index (b, n) with the unit coordinate put back on the last axis is (b, n, 0). -/
theorem lift_ix3_unit (h : S128x300x1.Reduces [2] S128x300) (b : Fin 128) (n : Fin 300) (k : Fin 1) :
    h.lift (ix2 b n) k = ix3 b n (0 : Fin 1) := by
  funext a; apply Fin.ext
  match a with
  | ⟨0, _⟩ => rfl
  | ⟨1, _⟩ => rfl
  | ⟨2, _⟩ => show k.val = 0; omega

/-- The in-range mask at (b, n) is set when the label is a class index. -/
theorem call0_v12_apply (x3 : (⟨S128x300, .i32⟩ : BufTy).Contents (Elt Ideal)) (b : Fin 128) (n : Fin 300)
    (hl : (x3 (ix2 b n)).toNat < 92) :
    val_main_call0_v12 (F := Ideal) x3 (ix2 b n) = 1#1 := by
  unfold val_main_call0_v12
  have hr : S128x300x1.Reduces [2] S128x300 := by decide
  refine (Host.reduce_eq_fold_single (IntOp.andi (w := 1)) (val_main_call0_v11 (F := Ideal) x3) _
    Gen.reducesTo_S128x300x1_S128x300_d2 hr Gen.h_S_ (ix2 b n)).trans ?_
  show Finset.fold (IntOp.andi (w := 1)) 1#1 (fun k : Fin 1 => val_main_call0_v11 (F := Ideal) x3 (hr.lift (ix2 b n) k))
    ({(0 : Fin 1)} : Finset (Fin 1)) = 1#1
  rw [Finset.fold_singleton, lift_ix3_unit, val_main_call0_v11_apply, val_main_call0_v7_apply, val_main_call0_v10_apply, call0_v5_apply x3 b n hl,
    val_main_call0_v6_apply, val_main_call0_c_2_apply, val_main_call0_v9_apply, val_main_call0_v8_apply,
    val_main_call0_c_1_apply]
  have h7 : IntOp.cmpi .sge (x3 (ix2 b n)) 0#32 = 1#1 := by
    refine IntOp.cmpi_sge.2 ?_
    rw [toInt_of_lt hl]
    have : (0#32 : BitVec 32).toInt = 0 := by decide
    omega
  have h10 : IntOp.cmpi .sle (x3 (ix2 b n)) 91#32 = 1#1 := by
    refine IntOp.cmpi_sle.2 ?_
    rw [toInt_of_lt hl]
    have : (91#32 : BitVec 32).toInt = 91 := by decide
    omega
  rw [h7, h10]
  decide

/-- The start-index position the lookup reads at (b, q, n): the batch coordinates (b, n) with the index vector's one
    component. -/
theorem gather_siIdx (b : Fin 128) (q : Fin 900) (n : Fin 300)
    (c : Fin gather_S128x900x92_S128x300x1_S128x900x300_1_2_0_0_2_2_19001.startIndexMap.length) :
    gather_S128x900x92_S128x300x1_S128x900x300_1_2_0_0_2_2_19001.siIdx (ix3 b q n) c = ix3 b n (0 : Fin 1) := by
  have hc : c.val = 0 := by
    have := c.isLt
    have hlen : gather_S128x900x92_S128x300x1_S128x900x300_1_2_0_0_2_2_19001.startIndexMap.length = 1 := rfl
    omega
  funext a; apply Fin.ext
  match a with
  | ⟨0, _⟩ => rfl
  | ⟨1, _⟩ => rfl
  | ⟨2, _⟩ => exact hc

/-- The lookup's operand index at (b, q, n): batch b, query q, and on the class axis the start index at (b, n, 0) read
    signed and clamped into 0..91. -/
theorem gather_operandIdx (idx : IVec S128x300x1 32) (b : Fin 128) (q : Fin 900) (n : Fin 300) :
    gather_S128x900x92_S128x300x1_S128x900x300_1_2_0_0_2_2_19001.operandIdx (ix3 b q n) idx
      = ix3 b q (⟨min (idx (ix3 b n (0 : Fin 1))).toInt.toNat 91, by omega⟩ : Fin 92) := by
  funext a; apply Fin.ext
  match a with
  | ⟨0, _⟩ =>
    show gather_S128x900x92_S128x300x1_S128x900x300_1_2_0_0_2_2_19001.start (ix3 b q n) idx (0 : Fin 3)
      + gather_S128x900x92_S128x300x1_S128x900x300_1_2_0_0_2_2_19001.batchCoord (ix3 b q n) (0 : Fin 3)
      + gather_S128x900x92_S128x300x1_S128x900x300_1_2_0_0_2_2_19001.offCoord (ix3 b q n) (0 : Fin 3) = b.val
    have h1 : gather_S128x900x92_S128x300x1_S128x900x300_1_2_0_0_2_2_19001.start (ix3 b q n) idx (0 : Fin 3) = 0 := rfl
    have h2 : gather_S128x900x92_S128x300x1_S128x900x300_1_2_0_0_2_2_19001.batchCoord (ix3 b q n) (0 : Fin 3) = b.val := rfl
    have h3 : gather_S128x900x92_S128x300x1_S128x900x300_1_2_0_0_2_2_19001.offCoord (ix3 b q n) (0 : Fin 3) = 0 := rfl
    omega
  | ⟨1, _⟩ =>
    show gather_S128x900x92_S128x300x1_S128x900x300_1_2_0_0_2_2_19001.start (ix3 b q n) idx (1 : Fin 3)
      + gather_S128x900x92_S128x300x1_S128x900x300_1_2_0_0_2_2_19001.batchCoord (ix3 b q n) (1 : Fin 3)
      + gather_S128x900x92_S128x300x1_S128x900x300_1_2_0_0_2_2_19001.offCoord (ix3 b q n) (1 : Fin 3) = q.val
    have h1 : gather_S128x900x92_S128x300x1_S128x900x300_1_2_0_0_2_2_19001.start (ix3 b q n) idx (1 : Fin 3) = 0 := rfl
    have h2 : gather_S128x900x92_S128x300x1_S128x900x300_1_2_0_0_2_2_19001.batchCoord (ix3 b q n) (1 : Fin 3) = 0 := rfl
    have h3 : gather_S128x900x92_S128x300x1_S128x900x300_1_2_0_0_2_2_19001.offCoord (ix3 b q n) (1 : Fin 3) = q.val := rfl
    omega
  | ⟨2, _⟩ =>
    show gather_S128x900x92_S128x300x1_S128x900x300_1_2_0_0_2_2_19001.start (ix3 b q n) idx (2 : Fin 3) + 0 + 0
      = min (idx (ix3 b n (0 : Fin 1))).toInt.toNat 91
    unfold GatherDims.start
    rw [dif_pos (by decide), gather_siIdx]
    rfl

/-- The lookup at (b, q, n) reads the softmax of row (b, q) at the label when the label is a class index (no clamping). -/
theorem call0_v13_apply (x0 : (⟨S128x900x92, .f32⟩ : BufTy).Contents (Elt Ideal)) (x3 : (⟨S128x300, .i32⟩ : BufTy).Contents (Elt Ideal))
    (b : Fin 128) (q : Fin 900) (n : Fin 300) (hl : (x3 (ix2 b n)).toNat < 92) :
    val_main_call0_v13 (F := Ideal) x0 x3 (ix3 b q n) = val_main_v10 (F := Ideal) x0 (ix3 b q (⟨(x3 (ix2 b n)).toNat, hl⟩ : Fin 92)) := by
  unfold val_main_call0_v13 Host.gather
  rw [gather_operandIdx]
  refine congrArg (fun c : Fin 92 => val_main_v10 (F := Ideal) x0 (ix3 b q c)) (Fin.ext ?_)
  show min (val_main_call0_v5 (F := Ideal) x3 (ix3 b n (0 : Fin 1))).toInt.toNat 91 = (x3 (ix2 b n)).toNat
  rw [call0_v5_apply x3 b n hl, toInt_of_lt hl, Int.toNat_natCast]
  omega

/-- The reference's negated class probability at (b, q, n) when target n's label is a class index. -/
theorem refClass_apply (x0 : (⟨S128x900x92, .f32⟩ : BufTy).Contents (Elt Ideal)) (x3 : (⟨S128x300, .i32⟩ : BufTy).Contents (Elt Ideal))
    (b : Fin 128) (q : Fin 900) (n : Fin 300) (hl : (x3 (ix2 b n)).toNat < 92) :
    val_main_v13 (F := Ideal) x0 x3 (ix3 b q n) = - prob x0 x3 b q n := by
  rw [val_main_v13_apply, val_main_v12_apply, val_main_call0_v14_apply]
  have e : idx_main_call0_v14 (ix3 b q n) = ix2 b n := by
    funext a; apply Fin.ext
    match a with
    | ⟨0, _⟩ => rfl
    | ⟨1, _⟩ => rfl
  rw [e, call0_v12_apply x3 b n hl, select_one, call0_v13_apply x0 x3 b q n hl, v10_apply]
  have hc : (⟨(x3 (ix2 b n)).toNat, hl⟩ : Fin 92) = cls92 (x3 (ix2 b n)) :=
    Fin.ext (Nat.mod_eq_of_lt hl).symm
  rw [hc]
  rfl

end Cert.ReferenceIdeal.ClassTerm

end
-- ==== Proof.RefL1.lean ====
/-
  The reference's ℓ¹ box term at one (batch, query, target) triple. The reference rewrites each target box's corners
  (x0, y0, x1, y1) as centre and size ((x0+x1)/2, (y0+y1)/2, x1−x0, y1−y0), lays the four numbers along a last axis,
  subtracts them from the predicted (cx, cy, w, h), takes absolute values and sums the four from 0. Halving is the
  product with ½ on every extended real, and a sum of four from 0 is the four added left to right.
-/
import proofs.«414171_j77472620085888_1_alg».proof.Proof.RefRead
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ReferenceIdeal.BoxL1

open Cert.ReferenceIdeal Cert.ReferenceIdeal.ReadP Cert.MatchCost Idealize.ShloMosaic Idealize.ShloMosaic.ValueIdx

/-! ## The two literals of a halving -/

/-- The f32 word 0x40000000 is the real 2. -/
theorem two_lit : Ideal.ofBits .f32 0x40000000#32 = ((2 : ℝ) : EReal) := by
  simp [Ideal.ofBits, Ideal.ieee, -EReal.coe_mul]; norm_num

/-- The f32 word 0x3F000000 is the real ½. -/
theorem half_lit : Ideal.ofBits .f32 0x3F000000#32 = ((1 / 2 : ℝ) : EReal) := by
  simp [Ideal.ofBits, Ideal.ieee, -EReal.coe_mul]; norm_num

/-- Dividing by the literal 2 is multiplying by the literal ½, on every extended real. -/
theorem div_two (a : EReal) : Ideal.div a (Ideal.ofBits .f32 0x40000000#32) = half32 * a := by
  rw [two_lit, Ideal.div_coe (by norm_num), mul_comm]
  show _ = Ideal.ofBits .f32 0x3F000000#32 * a
  rw [half_lit]

/-! ## The target box's four columns -/

section Columns
variable (x2 : (⟨S128x300x4, .f32⟩ : BufTy).Contents (Elt Ideal)) (b : Fin 128) (n : Fin 300)

/-- Column 0 of the target boxes at (b, n): the box's x0. -/
theorem v15_apply : val_main_v15 (F := Ideal) x2 (ix2 b n) = x2 (ix3 b n (0 : Fin 4)) := by
  rw [val_main_v15_apply, val_main_v14_apply]
  refine congrArg x2 (funext fun a => Fin.ext ?_)
  have hb := b.isLt; have hn := n.isLt
  match a with
  | ⟨0, _⟩ => show (b.val * 300 + n.val) / 300 = b.val; omega
  | ⟨1, _⟩ => show (b.val * 300 + n.val) / 1 % 300 = n.val; omega
  | ⟨2, _⟩ => rfl

/-- Column 1 of the target boxes at (b, n): the box's y0. -/
theorem v17_apply : val_main_v17 (F := Ideal) x2 (ix2 b n) = x2 (ix3 b n (1 : Fin 4)) := by
  rw [val_main_v17_apply, val_main_v16_apply]
  refine congrArg x2 (funext fun a => Fin.ext ?_)
  have hb := b.isLt; have hn := n.isLt
  match a with
  | ⟨0, _⟩ => show (b.val * 300 + n.val) / 300 = b.val; omega
  | ⟨1, _⟩ => show (b.val * 300 + n.val) / 1 % 300 = n.val; omega
  | ⟨2, _⟩ => rfl

/-- Column 2 of the target boxes at (b, n): the box's x1. -/
theorem v19_apply : val_main_v19 (F := Ideal) x2 (ix2 b n) = x2 (ix3 b n (2 : Fin 4)) := by
  rw [val_main_v19_apply, val_main_v18_apply]
  refine congrArg x2 (funext fun a => Fin.ext ?_)
  have hb := b.isLt; have hn := n.isLt
  match a with
  | ⟨0, _⟩ => show (b.val * 300 + n.val) / 300 = b.val; omega
  | ⟨1, _⟩ => show (b.val * 300 + n.val) / 1 % 300 = n.val; omega
  | ⟨2, _⟩ => rfl

/-- Column 3 of the target boxes at (b, n): the box's y1. -/
theorem v21_apply : val_main_v21 (F := Ideal) x2 (ix2 b n) = x2 (ix3 b n (3 : Fin 4)) := by
  rw [val_main_v21_apply, val_main_v20_apply]
  refine congrArg x2 (funext fun a => Fin.ext ?_)
  have hb := b.isLt; have hn := n.isLt
  match a with
  | ⟨0, _⟩ => show (b.val * 300 + n.val) / 300 = b.val; omega
  | ⟨1, _⟩ => show (b.val * 300 + n.val) / 1 % 300 = n.val; omega
  | ⟨2, _⟩ => rfl

/-! ## The target box as centre and size -/

/-- The centre's abscissa: (x0 + x1) / 2, the half of the sum. -/
theorem v24_apply : val_main_v24 (F := Ideal) x2 (ix2 b n)
    = half32 * (x2 (ix3 b n (0 : Fin 4)) + x2 (ix3 b n (2 : Fin 4))) := by
  rw [val_main_v24_apply, val_main_v22_apply, val_main_v23_apply, val_main_cst_2_apply, v15_apply, v19_apply]
  exact div_two _

/-- The centre's ordinate: (y0 + y1) / 2, the half of the sum. -/
theorem v27_apply : val_main_v27 (F := Ideal) x2 (ix2 b n)
    = half32 * (x2 (ix3 b n (1 : Fin 4)) + x2 (ix3 b n (3 : Fin 4))) := by
  rw [val_main_v27_apply, val_main_v25_apply, val_main_v26_apply, val_main_cst_3_apply, v17_apply, v21_apply]
  exact div_two _

/-- The width x1 − x0. -/
theorem v28_apply : val_main_v28 (F := Ideal) x2 (ix2 b n)
    = x2 (ix3 b n (2 : Fin 4)) - x2 (ix3 b n (0 : Fin 4)) := by
  rw [val_main_v28_apply, v19_apply, v15_apply]; rfl

/-- The height y1 − y0. -/
theorem v29_apply : val_main_v29 (F := Ideal) x2 (ix2 b n)
    = x2 (ix3 b n (3 : Fin 4)) - x2 (ix3 b n (1 : Fin 4)) := by
  rw [val_main_v29_apply, v21_apply, v17_apply]; rfl

end Columns

/-! ## The four numbers laid along a last axis -/

section Pieces
variable (x2 : (⟨S128x300x4, .f32⟩ : BufTy).Contents (Elt Ideal)) (b : Fin 128) (n : Fin 300)

/-- Position 0 of the joined axis is the first piece, the centre's abscissa. -/
theorem v34_zero : val_main_v34 (F := Ideal) x2 (ix3 b n (0 : Fin 4))
    = half32 * (x2 (ix3 b n (0 : Fin 4)) + x2 (ix3 b n (2 : Fin 4))) := by
  have h : val_main_v34 (F := Ideal) x2 (ix3 b n (0 : Fin 4)) = val_main_v30 (F := Ideal) x2 (ix3 b n (0 : Fin 1)) := by
    unfold val_main_v34
    exact concatenate_apply_piece (2 : Fin 3) _ _ (ix3 b n (0 : Fin 4)) 0 (by show (0 : Nat) < 4; decide) S128x300x1 _ rfl rfl 0 rfl
      (ix3 b n (0 : Fin 1))
      (fun a ha => match a with
        | ⟨0, _⟩ => rfl
        | ⟨1, _⟩ => rfl
        | ⟨2, _⟩ => absurd rfl ha)
      rfl
  rw [h, val_main_v30_apply, ← v24_apply]
  exact congrArg _ (funext fun a => Fin.ext (by match a with | ⟨0, _⟩ => rfl | ⟨1, _⟩ => rfl))

/-- Position 1 of the joined axis is the second piece, the centre's ordinate. -/
theorem v34_one : val_main_v34 (F := Ideal) x2 (ix3 b n (1 : Fin 4))
    = half32 * (x2 (ix3 b n (1 : Fin 4)) + x2 (ix3 b n (3 : Fin 4))) := by
  have h : val_main_v34 (F := Ideal) x2 (ix3 b n (1 : Fin 4)) = val_main_v31 (F := Ideal) x2 (ix3 b n (0 : Fin 1)) := by
    unfold val_main_v34
    exact concatenate_apply_piece (2 : Fin 3) _ _ (ix3 b n (1 : Fin 4)) 1 (by show (1 : Nat) < 4; decide) S128x300x1 _ rfl rfl 1 rfl
      (ix3 b n (0 : Fin 1))
      (fun a ha => match a with
        | ⟨0, _⟩ => rfl
        | ⟨1, _⟩ => rfl
        | ⟨2, _⟩ => absurd rfl ha)
      rfl
  rw [h, val_main_v31_apply, ← v27_apply]
  exact congrArg _ (funext fun a => Fin.ext (by match a with | ⟨0, _⟩ => rfl | ⟨1, _⟩ => rfl))

/-- Position 2 of the joined axis is the third piece, the width. -/
theorem v34_two : val_main_v34 (F := Ideal) x2 (ix3 b n (2 : Fin 4))
    = x2 (ix3 b n (2 : Fin 4)) - x2 (ix3 b n (0 : Fin 4)) := by
  have h : val_main_v34 (F := Ideal) x2 (ix3 b n (2 : Fin 4)) = val_main_v32 (F := Ideal) x2 (ix3 b n (0 : Fin 1)) := by
    unfold val_main_v34
    exact concatenate_apply_piece (2 : Fin 3) _ _ (ix3 b n (2 : Fin 4)) 2 (by show (2 : Nat) < 4; decide) S128x300x1 _ rfl rfl 2 rfl
      (ix3 b n (0 : Fin 1))
      (fun a ha => match a with
        | ⟨0, _⟩ => rfl
        | ⟨1, _⟩ => rfl
        | ⟨2, _⟩ => absurd rfl ha)
      rfl
  rw [h, val_main_v32_apply, ← v28_apply]
  exact congrArg _ (funext fun a => Fin.ext (by match a with | ⟨0, _⟩ => rfl | ⟨1, _⟩ => rfl))

/-- Position 3 of the joined axis is the fourth piece, the height. -/
theorem v34_three : val_main_v34 (F := Ideal) x2 (ix3 b n (3 : Fin 4))
    = x2 (ix3 b n (3 : Fin 4)) - x2 (ix3 b n (1 : Fin 4)) := by
  have h : val_main_v34 (F := Ideal) x2 (ix3 b n (3 : Fin 4)) = val_main_v33 (F := Ideal) x2 (ix3 b n (0 : Fin 1)) := by
    unfold val_main_v34
    exact concatenate_apply_piece (2 : Fin 3) _ _ (ix3 b n (3 : Fin 4)) 3 (by show (3 : Nat) < 4; decide) S128x300x1 _ rfl rfl 3 rfl
      (ix3 b n (0 : Fin 1))
      (fun a ha => match a with
        | ⟨0, _⟩ => rfl
        | ⟨1, _⟩ => rfl
        | ⟨2, _⟩ => absurd rfl ha)
      rfl
  rw [h, val_main_v33_apply, ← v29_apply]
  exact congrArg _ (funext fun a => Fin.ext (by match a with | ⟨0, _⟩ => rfl | ⟨1, _⟩ => rfl))

end Pieces

/-! ## The four absolute differences and their sum -/

section Sum
variable (x1 : (⟨S128x900x4, .f32⟩ : BufTy).Contents (Elt Ideal)) (x2 : (⟨S128x300x4, .f32⟩ : BufTy).Contents (Elt Ideal))
  (b : Fin 128) (q : Fin 900) (n : Fin 300)

/-- The absolute difference at position k of the triple (b, q, n): the predicted box's coordinate k, the same for every
    target, against the rewritten target box's coordinate k, the same for every query. -/
theorem v40_apply (k : Fin 4) : val_main_v40 (F := Ideal) x1 x2 (idx_main_v41 (ix3 b q n) k)
    = eabs (x1 (ix3 b q k) - val_main_v34 (F := Ideal) x2 (ix3 b n k)) := by
  have e1 : idx_main_v35 (idx_main_v37 (idx_main_v41 (ix3 b q n) k)) = ix3 b q k :=
    funext fun a => Fin.ext (by match a with | ⟨0, _⟩ => rfl | ⟨1, _⟩ => rfl | ⟨2, _⟩ => rfl)
  have e2 : idx_main_v36 (idx_main_v38 (idx_main_v41 (ix3 b q n) k)) = ix3 b n k :=
    funext fun a => Fin.ext (by match a with | ⟨0, _⟩ => rfl | ⟨1, _⟩ => rfl | ⟨2, _⟩ => rfl)
  rw [val_main_v40_apply, val_main_v39_apply, val_main_v37_apply, val_main_v35_apply, val_main_v38_apply,
    val_main_v36_apply, e1, e2]
  rfl

end Sum

/-- The reference's ℓ¹ term at (b, q, n) is the specification's `l1` of the eight coordinates. -/
theorem refL1_apply (x1 : (⟨S128x900x4, .f32⟩ : BufTy).Contents (Elt Ideal)) (x2 : (⟨S128x300x4, .f32⟩ : BufTy).Contents (Elt Ideal))
    (b : Fin 128) (q : Fin 900) (n : Fin 300) :
    val_main_v41 (F := Ideal) x1 x2 (ix3 b q n)
      = l1 (x1 (ix3 b q (0 : Fin 4))) (x1 (ix3 b q (1 : Fin 4))) (x1 (ix3 b q (2 : Fin 4))) (x1 (ix3 b q (3 : Fin 4)))
        (x2 (ix3 b n (0 : Fin 4))) (x2 (ix3 b n (1 : Fin 4))) (x2 (ix3 b n (2 : Fin 4))) (x2 (ix3 b n (3 : Fin 4))) := by
  rw [val_main_v41_apply, Fin.sum_univ_four, v40_apply, v40_apply, v40_apply, v40_apply, v34_zero, v34_one, v34_two,
    v34_three, val_main_cst_4_apply]
  show Ideal.ofBits .f32 0x00000000#32 + _ = _
  rw [Ideal.ofBits_zero_f32, zero_add]
  rfl

end Cert.ReferenceIdeal.BoxL1

end
-- ==== Proof.RefCorners.lean ====
/-
  The reference's predicted-box corners. From (cx, cy, w, h) the reference forms cx − ½w, cy − ½h, cx + ½w, cy + ½h
  and lays them along the last axis; read at that axis's four positions they are these four numbers. The predicted
  and the target boxes' areas follow: (x1 − x0)(y1 − y0) of each box's corners.
-/
import proofs.«414171_j77472620085888_1_alg».proof.Proof.RefRead
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ReferenceIdeal.Corners

open Cert.ReferenceIdeal Cert.ReferenceIdeal.ReadP Cert.MatchCost Idealize.ShloMosaic Idealize.ShloMosaic.ValueIdx

/-! ## Indices -/

section Layout
variable {α : Type}

/-- A rank-3 index whose first two coordinates are the quotient and the remainder of `b · N + q` by `N` (with `q < N`)
    and whose last is `k` is the index (b, q, k): flattening (b, q) row-major and splitting it again changes nothing. -/
theorem col_idx {N K : Nat} (i : (⟨3, ![128, N, K]⟩ : Shape).Idx) (b : Fin 128) (q : Fin N) (k : Fin K)
    (h0 : (i 0).val = (b.val * N + q.val) / N) (h1 : (i 1).val = (b.val * N + q.val) / 1 % N)
    (h2 : (i 2).val = k.val) : i = ix3 b q k := by
  have hq : q.val < N := q.isLt
  have hN : 0 < N := by omega
  refine funext fun a => Fin.ext ?_
  match a with
  | ⟨0, _⟩ =>
    show (i 0).val = b.val
    rw [h0, Nat.add_comm, Nat.add_mul_div_right _ _ hN, Nat.div_eq_of_lt hq, Nat.zero_add]
  | ⟨1, _⟩ =>
    show (i 1).val = q.val
    rw [h1, Nat.div_one, Nat.add_comm, Nat.add_mul_mod_self_right, Nat.mod_eq_of_lt hq]
  | ⟨2, _⟩ => exact h2

/-- A rank-2 index with coordinates `b` and `q` is (b, q). -/
theorem row_idx {N : Nat} (i : (⟨2, ![128, N]⟩ : Shape).Idx) (b : Fin 128) (q : Fin N)
    (h0 : (i 0).val = b.val) (h1 : (i 1).val = q.val) : i = ix2 b q := by
  refine funext fun a => Fin.ext ?_
  match a with
  | ⟨0, _⟩ => exact h0
  | ⟨1, _⟩ => exact h1

/-- Four pieces of unit width laid along the last axis, read at position 0 of that axis: the first piece. -/
theorem concat4_at0 (y0 y1 y2 y3 : S128x900x1.Idx → α)
    (h : Shape.Concatenates [S128x900x1, S128x900x1, S128x900x1, S128x900x1] S128x900x4 2)
    (b : Fin 128) (q : Fin 900) :
    concatenate S128x900x4 2 [⟨S128x900x1, y0⟩, ⟨S128x900x1, y1⟩, ⟨S128x900x1, y2⟩, ⟨S128x900x1, y3⟩] h (ix3 b q (0 : Fin 4))
      = y0 (ix3 b q (0 : Fin 1)) := by
  refine concatenate_apply_piece (2 : Fin S128x900x4.rank) [⟨S128x900x1, y0⟩, ⟨S128x900x1, y1⟩, ⟨S128x900x1, y2⟩, ⟨S128x900x1, y3⟩] h (ix3 b q (0 : Fin 4))
    0 (by show 0 < 4; omega) S128x900x1 y0 rfl rfl 0 rfl (ix3 b q (0 : Fin 1)) (fun ax hax => ?_) rfl
  match ax with
  | ⟨0, _⟩ => rfl
  | ⟨1, _⟩ => rfl
  | ⟨2, _⟩ => exact absurd rfl hax

/-- Four pieces of unit width laid along the last axis, read at position 1 of that axis: the second piece. -/
theorem concat4_at1 (y0 y1 y2 y3 : S128x900x1.Idx → α)
    (h : Shape.Concatenates [S128x900x1, S128x900x1, S128x900x1, S128x900x1] S128x900x4 2)
    (b : Fin 128) (q : Fin 900) :
    concatenate S128x900x4 2 [⟨S128x900x1, y0⟩, ⟨S128x900x1, y1⟩, ⟨S128x900x1, y2⟩, ⟨S128x900x1, y3⟩] h (ix3 b q (1 : Fin 4))
      = y1 (ix3 b q (0 : Fin 1)) := by
  refine concatenate_apply_piece (2 : Fin S128x900x4.rank) [⟨S128x900x1, y0⟩, ⟨S128x900x1, y1⟩, ⟨S128x900x1, y2⟩, ⟨S128x900x1, y3⟩] h (ix3 b q (1 : Fin 4))
    1 (by show 1 < 4; omega) S128x900x1 y1 rfl rfl 1 rfl (ix3 b q (0 : Fin 1)) (fun ax hax => ?_) rfl
  match ax with
  | ⟨0, _⟩ => rfl
  | ⟨1, _⟩ => rfl
  | ⟨2, _⟩ => exact absurd rfl hax

/-- Four pieces of unit width laid along the last axis, read at position 2 of that axis: the third piece. -/
theorem concat4_at2 (y0 y1 y2 y3 : S128x900x1.Idx → α)
    (h : Shape.Concatenates [S128x900x1, S128x900x1, S128x900x1, S128x900x1] S128x900x4 2)
    (b : Fin 128) (q : Fin 900) :
    concatenate S128x900x4 2 [⟨S128x900x1, y0⟩, ⟨S128x900x1, y1⟩, ⟨S128x900x1, y2⟩, ⟨S128x900x1, y3⟩] h (ix3 b q (2 : Fin 4))
      = y2 (ix3 b q (0 : Fin 1)) := by
  refine concatenate_apply_piece (2 : Fin S128x900x4.rank) [⟨S128x900x1, y0⟩, ⟨S128x900x1, y1⟩, ⟨S128x900x1, y2⟩, ⟨S128x900x1, y3⟩] h (ix3 b q (2 : Fin 4))
    2 (by show 2 < 4; omega) S128x900x1 y2 rfl rfl 2 rfl (ix3 b q (0 : Fin 1)) (fun ax hax => ?_) rfl
  match ax with
  | ⟨0, _⟩ => rfl
  | ⟨1, _⟩ => rfl
  | ⟨2, _⟩ => exact absurd rfl hax

/-- Four pieces of unit width laid along the last axis, read at position 3 of that axis: the fourth piece. -/
theorem concat4_at3 (y0 y1 y2 y3 : S128x900x1.Idx → α)
    (h : Shape.Concatenates [S128x900x1, S128x900x1, S128x900x1, S128x900x1] S128x900x4 2)
    (b : Fin 128) (q : Fin 900) :
    concatenate S128x900x4 2 [⟨S128x900x1, y0⟩, ⟨S128x900x1, y1⟩, ⟨S128x900x1, y2⟩, ⟨S128x900x1, y3⟩] h (ix3 b q (3 : Fin 4))
      = y3 (ix3 b q (0 : Fin 1)) := by
  refine concatenate_apply_piece (2 : Fin S128x900x4.rank) [⟨S128x900x1, y0⟩, ⟨S128x900x1, y1⟩, ⟨S128x900x1, y2⟩, ⟨S128x900x1, y3⟩] h (ix3 b q (3 : Fin 4))
    3 (by show 3 < 4; omega) S128x900x1 y3 rfl rfl 3 rfl (ix3 b q (0 : Fin 1)) (fun ax hax => ?_) rfl
  match ax with
  | ⟨0, _⟩ => rfl
  | ⟨1, _⟩ => rfl
  | ⟨2, _⟩ => exact absurd rfl hax

end Layout

/-! ## The reference's operations at an index, for any float instance -/

section Read
variable {F : FTy → Type} [FloatOps F]

/-- Column 0 of the predicted boxes, as a [128, 900] array: the centre's abscissa cx. -/
theorem v43_at (x1 : (⟨S128x900x4, .f32⟩ : BufTy).Contents (Elt F)) (b : Fin 128) (q : Fin 900) :
    val_main_v43 (F := F) x1 (ix2 b q) = x1 (ix3 b q (0 : Fin 4)) := by
  rw [val_main_v43_apply, val_main_v42_apply]
  exact congrArg x1 (col_idx _ b q (0 : Fin 4) rfl rfl rfl)

/-- Column 1 of the predicted boxes, as a [128, 900] array: the centre's ordinate cy. -/
theorem v45_at (x1 : (⟨S128x900x4, .f32⟩ : BufTy).Contents (Elt F)) (b : Fin 128) (q : Fin 900) :
    val_main_v45 (F := F) x1 (ix2 b q) = x1 (ix3 b q (1 : Fin 4)) := by
  rw [val_main_v45_apply, val_main_v44_apply]
  exact congrArg x1 (col_idx _ b q (1 : Fin 4) rfl rfl rfl)

/-- Column 2 of the predicted boxes, as a [128, 900] array: the width w. -/
theorem v47_at (x1 : (⟨S128x900x4, .f32⟩ : BufTy).Contents (Elt F)) (b : Fin 128) (q : Fin 900) :
    val_main_v47 (F := F) x1 (ix2 b q) = x1 (ix3 b q (2 : Fin 4)) := by
  rw [val_main_v47_apply, val_main_v46_apply]
  exact congrArg x1 (col_idx _ b q (2 : Fin 4) rfl rfl rfl)

/-- Column 3 of the predicted boxes, as a [128, 900] array: the height h. -/
theorem v49_at (x1 : (⟨S128x900x4, .f32⟩ : BufTy).Contents (Elt F)) (b : Fin 128) (q : Fin 900) :
    val_main_v49 (F := F) x1 (ix2 b q) = x1 (ix3 b q (3 : Fin 4)) := by
  rw [val_main_v49_apply, val_main_v48_apply]
  exact congrArg x1 (col_idx _ b q (3 : Fin 4) rfl rfl rfl)

/-- The literal ½ spread over [128, 900]. -/
theorem v50_at (i : S128x900.Idx) : val_main_v50 (F := F) i = FloatOps.ofBits .f32 0x3F000000#32 := by
  rw [val_main_v50_apply, val_main_cst_5_apply]

/-- The literal ½ spread over [128, 900]. -/
theorem v53_at (i : S128x900.Idx) : val_main_v53 (F := F) i = FloatOps.ofBits .f32 0x3F000000#32 := by
  rw [val_main_v53_apply, val_main_cst_6_apply]

/-- The literal ½ spread over [128, 900]. -/
theorem v56_at (i : S128x900.Idx) : val_main_v56 (F := F) i = FloatOps.ofBits .f32 0x3F000000#32 := by
  rw [val_main_v56_apply, val_main_cst_7_apply]

/-- The literal ½ spread over [128, 900]. -/
theorem v59_at (i : S128x900.Idx) : val_main_v59 (F := F) i = FloatOps.ofBits .f32 0x3F000000#32 := by
  rw [val_main_v59_apply, val_main_cst_8_apply]

/-- The edge cx − ½w at (b, q). -/
theorem v52_at (x1 : (⟨S128x900x4, .f32⟩ : BufTy).Contents (Elt F)) (b : Fin 128) (q : Fin 900) :
    val_main_v52 (F := F) x1 (ix2 b q)
      = FloatOps.subf (x1 (ix3 b q (0 : Fin 4))) (FloatOps.mulf (FloatOps.ofBits .f32 0x3F000000#32) (x1 (ix3 b q (2 : Fin 4)))) := by
  rw [val_main_v52_apply, val_main_v51_apply, v43_at, v50_at, v47_at]

/-- The edge cy − ½h at (b, q). -/
theorem v55_at (x1 : (⟨S128x900x4, .f32⟩ : BufTy).Contents (Elt F)) (b : Fin 128) (q : Fin 900) :
    val_main_v55 (F := F) x1 (ix2 b q)
      = FloatOps.subf (x1 (ix3 b q (1 : Fin 4))) (FloatOps.mulf (FloatOps.ofBits .f32 0x3F000000#32) (x1 (ix3 b q (3 : Fin 4)))) := by
  rw [val_main_v55_apply, val_main_v54_apply, v45_at, v53_at, v49_at]

/-- The edge cx + ½w at (b, q). -/
theorem v58_at (x1 : (⟨S128x900x4, .f32⟩ : BufTy).Contents (Elt F)) (b : Fin 128) (q : Fin 900) :
    val_main_v58 (F := F) x1 (ix2 b q)
      = FloatOps.addf (x1 (ix3 b q (0 : Fin 4))) (FloatOps.mulf (FloatOps.ofBits .f32 0x3F000000#32) (x1 (ix3 b q (2 : Fin 4)))) := by
  rw [val_main_v58_apply, val_main_v57_apply, v43_at, v56_at, v47_at]

/-- The edge cy + ½h at (b, q). -/
theorem v61_at (x1 : (⟨S128x900x4, .f32⟩ : BufTy).Contents (Elt F)) (b : Fin 128) (q : Fin 900) :
    val_main_v61 (F := F) x1 (ix2 b q)
      = FloatOps.addf (x1 (ix3 b q (1 : Fin 4))) (FloatOps.mulf (FloatOps.ofBits .f32 0x3F000000#32) (x1 (ix3 b q (3 : Fin 4)))) := by
  rw [val_main_v61_apply, val_main_v60_apply, v45_at, v59_at, v49_at]

/-- The same edge with a unit last axis added. -/
theorem v62_at (x1 : (⟨S128x900x4, .f32⟩ : BufTy).Contents (Elt F)) (b : Fin 128) (q : Fin 900) :
    val_main_v62 (F := F) x1 (ix3 b q (0 : Fin 1)) = val_main_v52 (F := F) x1 (ix2 b q) := by
  rw [val_main_v62_apply]
  exact congrArg (val_main_v52 (F := F) x1) (row_idx _ b q rfl rfl)

/-- The same edge with a unit last axis added. -/
theorem v63_at (x1 : (⟨S128x900x4, .f32⟩ : BufTy).Contents (Elt F)) (b : Fin 128) (q : Fin 900) :
    val_main_v63 (F := F) x1 (ix3 b q (0 : Fin 1)) = val_main_v55 (F := F) x1 (ix2 b q) := by
  rw [val_main_v63_apply]
  exact congrArg (val_main_v55 (F := F) x1) (row_idx _ b q rfl rfl)

/-- The same edge with a unit last axis added. -/
theorem v64_at (x1 : (⟨S128x900x4, .f32⟩ : BufTy).Contents (Elt F)) (b : Fin 128) (q : Fin 900) :
    val_main_v64 (F := F) x1 (ix3 b q (0 : Fin 1)) = val_main_v58 (F := F) x1 (ix2 b q) := by
  rw [val_main_v64_apply]
  exact congrArg (val_main_v58 (F := F) x1) (row_idx _ b q rfl rfl)

/-- The same edge with a unit last axis added. -/
theorem v65_at (x1 : (⟨S128x900x4, .f32⟩ : BufTy).Contents (Elt F)) (b : Fin 128) (q : Fin 900) :
    val_main_v65 (F := F) x1 (ix3 b q (0 : Fin 1)) = val_main_v61 (F := F) x1 (ix2 b q) := by
  rw [val_main_v65_apply]
  exact congrArg (val_main_v61 (F := F) x1) (row_idx _ b q rfl rfl)

/-- The corner array at position 0 of its last axis is the first edge. -/
theorem v66_at0 (x1 : (⟨S128x900x4, .f32⟩ : BufTy).Contents (Elt F)) (b : Fin 128) (q : Fin 900) :
    val_main_v66 (F := F) x1 (ix3 b q (0 : Fin 4)) = val_main_v52 (F := F) x1 (ix2 b q) := by
  unfold val_main_v66
  exact (concat4_at0 _ _ _ _ _ b q).trans (v62_at x1 b q)

/-- The corner array at position 1 of its last axis is the second edge. -/
theorem v66_at1 (x1 : (⟨S128x900x4, .f32⟩ : BufTy).Contents (Elt F)) (b : Fin 128) (q : Fin 900) :
    val_main_v66 (F := F) x1 (ix3 b q (1 : Fin 4)) = val_main_v55 (F := F) x1 (ix2 b q) := by
  unfold val_main_v66
  exact (concat4_at1 _ _ _ _ _ b q).trans (v63_at x1 b q)

/-- The corner array at position 2 of its last axis is the third edge. -/
theorem v66_at2 (x1 : (⟨S128x900x4, .f32⟩ : BufTy).Contents (Elt F)) (b : Fin 128) (q : Fin 900) :
    val_main_v66 (F := F) x1 (ix3 b q (2 : Fin 4)) = val_main_v58 (F := F) x1 (ix2 b q) := by
  unfold val_main_v66
  exact (concat4_at2 _ _ _ _ _ b q).trans (v64_at x1 b q)

/-- The corner array at position 3 of its last axis is the fourth edge. -/
theorem v66_at3 (x1 : (⟨S128x900x4, .f32⟩ : BufTy).Contents (Elt F)) (b : Fin 128) (q : Fin 900) :
    val_main_v66 (F := F) x1 (ix3 b q (3 : Fin 4)) = val_main_v61 (F := F) x1 (ix2 b q) := by
  unfold val_main_v66
  exact (concat4_at3 _ _ _ _ _ b q).trans (v65_at x1 b q)

/-- Column 2 of the corner array, as a [128, 900] array. -/
theorem v68_at (x1 : (⟨S128x900x4, .f32⟩ : BufTy).Contents (Elt F)) (b : Fin 128) (q : Fin 900) :
    val_main_v68 (F := F) x1 (ix2 b q) = val_main_v66 (F := F) x1 (ix3 b q (2 : Fin 4)) := by
  rw [val_main_v68_apply, val_main_v67_apply]
  exact congrArg (val_main_v66 (F := F) x1) (col_idx _ b q (2 : Fin 4) rfl rfl rfl)

/-- Column 0 of the corner array, as a [128, 900] array. -/
theorem v70_at (x1 : (⟨S128x900x4, .f32⟩ : BufTy).Contents (Elt F)) (b : Fin 128) (q : Fin 900) :
    val_main_v70 (F := F) x1 (ix2 b q) = val_main_v66 (F := F) x1 (ix3 b q (0 : Fin 4)) := by
  rw [val_main_v70_apply, val_main_v69_apply]
  exact congrArg (val_main_v66 (F := F) x1) (col_idx _ b q (0 : Fin 4) rfl rfl rfl)

/-- Column 3 of the corner array, as a [128, 900] array. -/
theorem v73_at (x1 : (⟨S128x900x4, .f32⟩ : BufTy).Contents (Elt F)) (b : Fin 128) (q : Fin 900) :
    val_main_v73 (F := F) x1 (ix2 b q) = val_main_v66 (F := F) x1 (ix3 b q (3 : Fin 4)) := by
  rw [val_main_v73_apply, val_main_v72_apply]
  exact congrArg (val_main_v66 (F := F) x1) (col_idx _ b q (3 : Fin 4) rfl rfl rfl)

/-- Column 1 of the corner array, as a [128, 900] array. -/
theorem v75_at (x1 : (⟨S128x900x4, .f32⟩ : BufTy).Contents (Elt F)) (b : Fin 128) (q : Fin 900) :
    val_main_v75 (F := F) x1 (ix2 b q) = val_main_v66 (F := F) x1 (ix3 b q (1 : Fin 4)) := by
  rw [val_main_v75_apply, val_main_v74_apply]
  exact congrArg (val_main_v66 (F := F) x1) (col_idx _ b q (1 : Fin 4) rfl rfl rfl)

/-- The predicted box's area from the corner array: (right − left) · (bottom − top). -/
theorem v77_at (x1 : (⟨S128x900x4, .f32⟩ : BufTy).Contents (Elt F)) (b : Fin 128) (q : Fin 900) :
    val_main_v77 (F := F) x1 (ix2 b q)
      = FloatOps.mulf
          (FloatOps.subf (val_main_v66 (F := F) x1 (ix3 b q (2 : Fin 4))) (val_main_v66 (F := F) x1 (ix3 b q (0 : Fin 4))))
          (FloatOps.subf (val_main_v66 (F := F) x1 (ix3 b q (3 : Fin 4))) (val_main_v66 (F := F) x1 (ix3 b q (1 : Fin 4)))) := by
  rw [val_main_v77_apply, val_main_v71_apply, val_main_v76_apply, v68_at, v70_at, v73_at, v75_at]

/-- Column 2 of the target boxes, as a [128, 300] array. -/
theorem v79_at (x2 : (⟨S128x300x4, .f32⟩ : BufTy).Contents (Elt F)) (b : Fin 128) (n : Fin 300) :
    val_main_v79 (F := F) x2 (ix2 b n) = x2 (ix3 b n (2 : Fin 4)) := by
  rw [val_main_v79_apply, val_main_v78_apply]
  exact congrArg x2 (col_idx _ b n (2 : Fin 4) rfl rfl rfl)

/-- Column 0 of the target boxes, as a [128, 300] array. -/
theorem v81_at (x2 : (⟨S128x300x4, .f32⟩ : BufTy).Contents (Elt F)) (b : Fin 128) (n : Fin 300) :
    val_main_v81 (F := F) x2 (ix2 b n) = x2 (ix3 b n (0 : Fin 4)) := by
  rw [val_main_v81_apply, val_main_v80_apply]
  exact congrArg x2 (col_idx _ b n (0 : Fin 4) rfl rfl rfl)

/-- Column 3 of the target boxes, as a [128, 300] array. -/
theorem v84_at (x2 : (⟨S128x300x4, .f32⟩ : BufTy).Contents (Elt F)) (b : Fin 128) (n : Fin 300) :
    val_main_v84 (F := F) x2 (ix2 b n) = x2 (ix3 b n (3 : Fin 4)) := by
  rw [val_main_v84_apply, val_main_v83_apply]
  exact congrArg x2 (col_idx _ b n (3 : Fin 4) rfl rfl rfl)

/-- Column 1 of the target boxes, as a [128, 300] array. -/
theorem v86_at (x2 : (⟨S128x300x4, .f32⟩ : BufTy).Contents (Elt F)) (b : Fin 128) (n : Fin 300) :
    val_main_v86 (F := F) x2 (ix2 b n) = x2 (ix3 b n (1 : Fin 4)) := by
  rw [val_main_v86_apply, val_main_v85_apply]
  exact congrArg x2 (col_idx _ b n (1 : Fin 4) rfl rfl rfl)

/-- The target box's area: (x1 − x0) · (y1 − y0). -/
theorem v88_at (x2 : (⟨S128x300x4, .f32⟩ : BufTy).Contents (Elt F)) (b : Fin 128) (n : Fin 300) :
    val_main_v88 (F := F) x2 (ix2 b n)
      = FloatOps.mulf
          (FloatOps.subf (x2 (ix3 b n (2 : Fin 4))) (x2 (ix3 b n (0 : Fin 4))))
          (FloatOps.subf (x2 (ix3 b n (3 : Fin 4))) (x2 (ix3 b n (1 : Fin 4)))) := by
  rw [val_main_v88_apply, val_main_v82_apply, val_main_v87_apply, v79_at, v81_at, v84_at, v86_at]

end Read

/-! ## At the ideal instance: the float operations are the extended reals' -/

/-- The corner array at the last axis's position 0: the left edge cx − ½w. -/
theorem corner0_apply (x1 : (⟨S128x900x4, .f32⟩ : BufTy).Contents (Elt Ideal)) (b : Fin 128) (q : Fin 900) :
    val_main_v66 (F := Ideal) x1 (ix3 b q (0 : Fin 4)) = x1 (ix3 b q (0 : Fin 4)) - half32 * x1 (ix3 b q (2 : Fin 4)) := by
  rw [v66_at0, v52_at]
  rfl

/-- Position 1: the top edge cy − ½h. -/
theorem corner1_apply (x1 : (⟨S128x900x4, .f32⟩ : BufTy).Contents (Elt Ideal)) (b : Fin 128) (q : Fin 900) :
    val_main_v66 (F := Ideal) x1 (ix3 b q (1 : Fin 4)) = x1 (ix3 b q (1 : Fin 4)) - half32 * x1 (ix3 b q (3 : Fin 4)) := by
  rw [v66_at1, v55_at]
  rfl

/-- Position 2: the right edge cx + ½w. -/
theorem corner2_apply (x1 : (⟨S128x900x4, .f32⟩ : BufTy).Contents (Elt Ideal)) (b : Fin 128) (q : Fin 900) :
    val_main_v66 (F := Ideal) x1 (ix3 b q (2 : Fin 4)) = x1 (ix3 b q (0 : Fin 4)) + half32 * x1 (ix3 b q (2 : Fin 4)) := by
  rw [v66_at2, v58_at]
  rfl

/-- Position 3: the bottom edge cy + ½h. -/
theorem corner3_apply (x1 : (⟨S128x900x4, .f32⟩ : BufTy).Contents (Elt Ideal)) (b : Fin 128) (q : Fin 900) :
    val_main_v66 (F := Ideal) x1 (ix3 b q (3 : Fin 4)) = x1 (ix3 b q (1 : Fin 4)) + half32 * x1 (ix3 b q (3 : Fin 4)) := by
  rw [v66_at3, v61_at]
  rfl

/-- The predicted box's area. -/
theorem areaP_apply (x1 : (⟨S128x900x4, .f32⟩ : BufTy).Contents (Elt Ideal)) (b : Fin 128) (q : Fin 900) :
    val_main_v77 (F := Ideal) x1 (ix2 b q)
      = areaP (x1 (ix3 b q (0 : Fin 4))) (x1 (ix3 b q (1 : Fin 4))) (x1 (ix3 b q (2 : Fin 4))) (x1 (ix3 b q (3 : Fin 4))) := by
  rw [v77_at, corner0_apply, corner1_apply, corner2_apply, corner3_apply]
  rfl

/-- The target box's area. -/
theorem areaT_apply (x2 : (⟨S128x300x4, .f32⟩ : BufTy).Contents (Elt Ideal)) (b : Fin 128) (n : Fin 300) :
    val_main_v88 (F := Ideal) x2 (ix2 b n)
      = areaT (x2 (ix3 b n (0 : Fin 4))) (x2 (ix3 b n (1 : Fin 4))) (x2 (ix3 b n (2 : Fin 4))) (x2 (ix3 b n (3 : Fin 4))) := by
  rw [v88_at]
  rfl

end Cert.ReferenceIdeal.Corners

end
-- ==== Proof.RefInter.lean ====
/-
  The reference's intersection and union areas at one (batch, query, target) triple: on each axis the overlap of the
  predicted and the target interval, min of the right ends minus max of the left ends, clipped below at 0 (the
  reference's clip is `max 0 ·`, the same number as `max · 0`); their product; and area + area − intersection.
-/
import proofs.«414171_j77472620085888_1_alg».proof.Proof.RefCorners
import proofs.«414171_j77472620085888_1_alg».proof.Proof.RefRead
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ReferenceIdeal.InterUnion

open Cert.ReferenceIdeal Cert.ReferenceIdeal.ReadP Cert.MatchCost Idealize.ShloMosaic Idealize.ShloMosaic.ValueIdx Cert.ReferenceIdeal.Corners

/-- The overlap's left end on the first axis: the larger of the predicted and the target left edge. -/
theorem left0_apply (x1 : (⟨S128x900x4, .f32⟩ : BufTy).Contents (Elt Ideal)) (x2 : (⟨S128x300x4, .f32⟩ : BufTy).Contents (Elt Ideal))
    (b : Fin 128) (q : Fin 900) (n : Fin 300) :
    val_main_v95 (F := Ideal) x1 x2 (ix4 b q n (0 : Fin 2))
      = max (val_main_v66 (F := Ideal) x1 (ix3 b q (0 : Fin 4))) (x2 (ix3 b n (0 : Fin 4))) := by
  rw [val_main_v95_apply, val_main_v93_apply, val_main_v90_apply, val_main_v89_apply, val_main_v94_apply,
    val_main_v92_apply, val_main_v91_apply]
  have hp : idx_main_v89 (idx_main_v90 (idx_main_v93 (ix4 b q n (0 : Fin 2)))) = ix3 b q (0 : Fin 4) := by
    funext a; match a with | ⟨0, _⟩ => rfl | ⟨1, _⟩ => rfl | ⟨2, _⟩ => rfl
  have ht : idx_main_v91 (idx_main_v92 (idx_main_v94 (ix4 b q n (0 : Fin 2)))) = ix3 b n (0 : Fin 4) := by
    funext a; match a with | ⟨0, _⟩ => rfl | ⟨1, _⟩ => rfl | ⟨2, _⟩ => rfl
  rw [hp, ht]
  rfl

/-- The overlap's left end on the second axis: the larger of the two top edges. -/
theorem left1_apply (x1 : (⟨S128x900x4, .f32⟩ : BufTy).Contents (Elt Ideal)) (x2 : (⟨S128x300x4, .f32⟩ : BufTy).Contents (Elt Ideal))
    (b : Fin 128) (q : Fin 900) (n : Fin 300) :
    val_main_v95 (F := Ideal) x1 x2 (ix4 b q n (1 : Fin 2))
      = max (val_main_v66 (F := Ideal) x1 (ix3 b q (1 : Fin 4))) (x2 (ix3 b n (1 : Fin 4))) := by
  rw [val_main_v95_apply, val_main_v93_apply, val_main_v90_apply, val_main_v89_apply, val_main_v94_apply,
    val_main_v92_apply, val_main_v91_apply]
  have hp : idx_main_v89 (idx_main_v90 (idx_main_v93 (ix4 b q n (1 : Fin 2)))) = ix3 b q (1 : Fin 4) := by
    funext a; match a with | ⟨0, _⟩ => rfl | ⟨1, _⟩ => rfl | ⟨2, _⟩ => rfl
  have ht : idx_main_v91 (idx_main_v92 (idx_main_v94 (ix4 b q n (1 : Fin 2)))) = ix3 b n (1 : Fin 4) := by
    funext a; match a with | ⟨0, _⟩ => rfl | ⟨1, _⟩ => rfl | ⟨2, _⟩ => rfl
  rw [hp, ht]
  rfl

/-- The overlap's right end on the first axis: the smaller of the predicted and the target right edge. -/
theorem right0_apply (x1 : (⟨S128x900x4, .f32⟩ : BufTy).Contents (Elt Ideal)) (x2 : (⟨S128x300x4, .f32⟩ : BufTy).Contents (Elt Ideal))
    (b : Fin 128) (q : Fin 900) (n : Fin 300) :
    val_main_v102 (F := Ideal) x1 x2 (ix4 b q n (0 : Fin 2))
      = min (val_main_v66 (F := Ideal) x1 (ix3 b q (2 : Fin 4))) (x2 (ix3 b n (2 : Fin 4))) := by
  rw [val_main_v102_apply, val_main_v100_apply, val_main_v97_apply, val_main_v96_apply, val_main_v101_apply,
    val_main_v99_apply, val_main_v98_apply]
  have hp : idx_main_v96 (idx_main_v97 (idx_main_v100 (ix4 b q n (0 : Fin 2)))) = ix3 b q (2 : Fin 4) := by
    funext a; match a with | ⟨0, _⟩ => rfl | ⟨1, _⟩ => rfl | ⟨2, _⟩ => rfl
  have ht : idx_main_v98 (idx_main_v99 (idx_main_v101 (ix4 b q n (0 : Fin 2)))) = ix3 b n (2 : Fin 4) := by
    funext a; match a with | ⟨0, _⟩ => rfl | ⟨1, _⟩ => rfl | ⟨2, _⟩ => rfl
  rw [hp, ht]
  rfl

/-- The overlap's right end on the second axis: the smaller of the two bottom edges. -/
theorem right1_apply (x1 : (⟨S128x900x4, .f32⟩ : BufTy).Contents (Elt Ideal)) (x2 : (⟨S128x300x4, .f32⟩ : BufTy).Contents (Elt Ideal))
    (b : Fin 128) (q : Fin 900) (n : Fin 300) :
    val_main_v102 (F := Ideal) x1 x2 (ix4 b q n (1 : Fin 2))
      = min (val_main_v66 (F := Ideal) x1 (ix3 b q (3 : Fin 4))) (x2 (ix3 b n (3 : Fin 4))) := by
  rw [val_main_v102_apply, val_main_v100_apply, val_main_v97_apply, val_main_v96_apply, val_main_v101_apply,
    val_main_v99_apply, val_main_v98_apply]
  have hp : idx_main_v96 (idx_main_v97 (idx_main_v100 (ix4 b q n (1 : Fin 2)))) = ix3 b q (3 : Fin 4) := by
    funext a; match a with | ⟨0, _⟩ => rfl | ⟨1, _⟩ => rfl | ⟨2, _⟩ => rfl
  have ht : idx_main_v98 (idx_main_v99 (idx_main_v101 (ix4 b q n (1 : Fin 2)))) = ix3 b n (3 : Fin 4) := by
    funext a; match a with | ⟨0, _⟩ => rfl | ⟨1, _⟩ => rfl | ⟨2, _⟩ => rfl
  rw [hp, ht]
  rfl

/-- The clipped overlap length on either axis: the clip at 0 is `max 0 ·`, the right end minus the left end inside. -/
theorem clip_apply (x1 : (⟨S128x900x4, .f32⟩ : BufTy).Contents (Elt Ideal)) (x2 : (⟨S128x300x4, .f32⟩ : BufTy).Contents (Elt Ideal))
    (b : Fin 128) (q : Fin 900) (n : Fin 300) (c : Fin 2) :
    val_main_v104 (F := Ideal) x1 x2 (ix4 b q n c)
      = max (val_main_v102 (F := Ideal) x1 x2 (ix4 b q n c) - val_main_v95 (F := Ideal) x1 x2 (ix4 b q n c)) zero32 := by
  rw [val_main_v104_apply, val_main_call1_v1_apply, val_main_call1_v0_apply, val_main_cst_9_apply, val_main_v103_apply, max_comm]
  rfl

/-- The row-major position of (b, q, n) in a 128×900×300 array, split back into its coordinates. -/
theorem unflatten (b : Fin 128) (q : Fin 900) (n : Fin 300) :
    ((b.val * 900 + q.val) * 300 + n.val) / 270000 = b.val
      ∧ ((b.val * 900 + q.val) * 300 + n.val) / 300 % 900 = q.val
      ∧ ((b.val * 900 + q.val) * 300 + n.val) / 1 % 300 = n.val := by
  have hb := b.isLt; have hq := q.isLt; have hn := n.isLt
  omega

/-- The first axis's clipped overlap, with the unit axis dropped. -/
theorem len0_apply (x1 : (⟨S128x900x4, .f32⟩ : BufTy).Contents (Elt Ideal)) (x2 : (⟨S128x300x4, .f32⟩ : BufTy).Contents (Elt Ideal))
    (b : Fin 128) (q : Fin 900) (n : Fin 300) :
    val_main_v106 (F := Ideal) x1 x2 (ix3 b q n) = val_main_v104 (F := Ideal) x1 x2 (ix4 b q n (0 : Fin 2)) := by
  rw [val_main_v106_apply, val_main_v105_apply]
  have h : idx_main_v105 (idx_main_v106 (ix3 b q n)) = ix4 b q n (0 : Fin 2) := by
    obtain ⟨h0, h1, h2⟩ := unflatten b q n
    funext a
    match a with
    | ⟨0, _⟩ => exact Fin.ext h0
    | ⟨1, _⟩ => exact Fin.ext h1
    | ⟨2, _⟩ => exact Fin.ext h2
    | ⟨3, _⟩ => rfl
  rw [h]

/-- The second axis's clipped overlap, with the unit axis dropped. -/
theorem len1_apply (x1 : (⟨S128x900x4, .f32⟩ : BufTy).Contents (Elt Ideal)) (x2 : (⟨S128x300x4, .f32⟩ : BufTy).Contents (Elt Ideal))
    (b : Fin 128) (q : Fin 900) (n : Fin 300) :
    val_main_v108 (F := Ideal) x1 x2 (ix3 b q n) = val_main_v104 (F := Ideal) x1 x2 (ix4 b q n (1 : Fin 2)) := by
  rw [val_main_v108_apply, val_main_v107_apply]
  have h : idx_main_v107 (idx_main_v108 (ix3 b q n)) = ix4 b q n (1 : Fin 2) := by
    obtain ⟨h0, h1, h2⟩ := unflatten b q n
    funext a
    match a with
    | ⟨0, _⟩ => exact Fin.ext h0
    | ⟨1, _⟩ => exact Fin.ext h1
    | ⟨2, _⟩ => exact Fin.ext h2
    | ⟨3, _⟩ => rfl
  rw [h]

/-- The intersection's area. -/
theorem inter_apply (x1 : (⟨S128x900x4, .f32⟩ : BufTy).Contents (Elt Ideal)) (x2 : (⟨S128x300x4, .f32⟩ : BufTy).Contents (Elt Ideal))
    (b : Fin 128) (q : Fin 900) (n : Fin 300) :
    val_main_v109 (F := Ideal) x1 x2 (ix3 b q n)
      = inter (x1 (ix3 b q (0 : Fin 4))) (x1 (ix3 b q (1 : Fin 4))) (x1 (ix3 b q (2 : Fin 4))) (x1 (ix3 b q (3 : Fin 4)))
        (x2 (ix3 b n (0 : Fin 4))) (x2 (ix3 b n (1 : Fin 4))) (x2 (ix3 b n (2 : Fin 4))) (x2 (ix3 b n (3 : Fin 4))) := by
  rw [val_main_v109_apply, len0_apply, len1_apply, clip_apply, clip_apply, left0_apply, left1_apply, right0_apply,
    right1_apply, corner0_apply, corner1_apply, corner2_apply, corner3_apply]
  rfl

/-- The predicted box's area, repeated over the targets. -/
theorem areaP_bcast_apply (x1 : (⟨S128x900x4, .f32⟩ : BufTy).Contents (Elt Ideal)) (b : Fin 128) (q : Fin 900) (n : Fin 300) :
    val_main_v112 (F := Ideal) x1 (ix3 b q n) = val_main_v77 (F := Ideal) x1 (ix2 b q) := by
  rw [val_main_v112_apply, val_main_v110_apply]
  have h : idx_main_v110 (idx_main_v112 (ix3 b q n)) = ix2 b q := by
    funext a; match a with | ⟨0, _⟩ => rfl | ⟨1, _⟩ => rfl
  rw [h]

/-- The target box's area, repeated over the queries. -/
theorem areaT_bcast_apply (x2 : (⟨S128x300x4, .f32⟩ : BufTy).Contents (Elt Ideal)) (b : Fin 128) (q : Fin 900) (n : Fin 300) :
    val_main_v113 (F := Ideal) x2 (ix3 b q n) = val_main_v88 (F := Ideal) x2 (ix2 b n) := by
  rw [val_main_v113_apply, val_main_v111_apply]
  have h : idx_main_v111 (idx_main_v113 (ix3 b q n)) = ix2 b n := by
    funext a; match a with | ⟨0, _⟩ => rfl | ⟨1, _⟩ => rfl
  rw [h]

/-- The union's area. -/
theorem union_apply (x1 : (⟨S128x900x4, .f32⟩ : BufTy).Contents (Elt Ideal)) (x2 : (⟨S128x300x4, .f32⟩ : BufTy).Contents (Elt Ideal))
    (b : Fin 128) (q : Fin 900) (n : Fin 300) :
    val_main_v115 (F := Ideal) x1 x2 (ix3 b q n)
      = union (x1 (ix3 b q (0 : Fin 4))) (x1 (ix3 b q (1 : Fin 4))) (x1 (ix3 b q (2 : Fin 4))) (x1 (ix3 b q (3 : Fin 4)))
        (x2 (ix3 b n (0 : Fin 4))) (x2 (ix3 b n (1 : Fin 4))) (x2 (ix3 b n (2 : Fin 4))) (x2 (ix3 b n (3 : Fin 4))) := by
  rw [val_main_v115_apply, val_main_v114_apply, areaP_bcast_apply, areaT_bcast_apply, areaP_apply, areaT_apply,
    inter_apply]
  rfl

end Cert.ReferenceIdeal.InterUnion

end
-- ==== Proof.RefHull.lean ====
/-
  The reference's enclosing-box area at one (batch, query, target) triple: on each axis the hull of the predicted and
  the target interval, max of the right ends minus min of the left ends, clipped below at 0; their product.
-/
import proofs.«414171_j77472620085888_1_alg».proof.Proof.RefCorners
import proofs.«414171_j77472620085888_1_alg».proof.Proof.RefRead
import proofs.«414171_j77472620085888_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.ReferenceIdeal.Hull

open Cert.ReferenceIdeal Cert.ReferenceIdeal.ReadP Cert.MatchCost Idealize.ShloMosaic Idealize.ShloMosaic.ValueIdx Cert.ReferenceIdeal.Corners

/-! ## The interval ends on each axis

Position 0 of the last axis is the horizontal axis, position 1 the vertical one. The left (top) ends are positions 0
and 1 of the corner array and of the target box; the right (bottom) ends are positions 2 and 3. Each is spread over
the (query, target) grid, the predicted one along the target axis and the target one along the query axis. -/

/-- Horizontal axis: the smaller of the two left edges. -/
theorem left_at0 (x1 : (⟨S128x900x4, .f32⟩ : BufTy).Contents (Elt Ideal)) (x2 : (⟨S128x300x4, .f32⟩ : BufTy).Contents (Elt Ideal))
    (b : Fin 128) (q : Fin 900) (n : Fin 300) :
    val_main_v123 (F := Ideal) x1 x2 (ix4 b q n (0 : Fin 2))
      = min (val_main_v66 (F := Ideal) x1 (ix3 b q (0 : Fin 4))) (x2 (ix3 b n (0 : Fin 4))) := by
  rw [val_main_v123_apply, val_main_v121_apply, val_main_v118_apply, val_main_v117_apply,
    val_main_v122_apply, val_main_v120_apply, val_main_v119_apply]
  have h1 : idx_main_v117 (idx_main_v118 (idx_main_v121 (ix4 b q n (0 : Fin 2)))) = ix3 b q (0 : Fin 4) := by
    funext a; match a with | ⟨0, _⟩ => rfl | ⟨1, _⟩ => rfl | ⟨2, _⟩ => rfl
  have h2 : idx_main_v119 (idx_main_v120 (idx_main_v122 (ix4 b q n (0 : Fin 2)))) = ix3 b n (0 : Fin 4) := by
    funext a; match a with | ⟨0, _⟩ => rfl | ⟨1, _⟩ => rfl | ⟨2, _⟩ => rfl
  rw [h1, h2]; rfl

/-- Vertical axis: the smaller of the two top edges. -/
theorem left_at1 (x1 : (⟨S128x900x4, .f32⟩ : BufTy).Contents (Elt Ideal)) (x2 : (⟨S128x300x4, .f32⟩ : BufTy).Contents (Elt Ideal))
    (b : Fin 128) (q : Fin 900) (n : Fin 300) :
    val_main_v123 (F := Ideal) x1 x2 (ix4 b q n (1 : Fin 2))
      = min (val_main_v66 (F := Ideal) x1 (ix3 b q (1 : Fin 4))) (x2 (ix3 b n (1 : Fin 4))) := by
  rw [val_main_v123_apply, val_main_v121_apply, val_main_v118_apply, val_main_v117_apply,
    val_main_v122_apply, val_main_v120_apply, val_main_v119_apply]
  have h1 : idx_main_v117 (idx_main_v118 (idx_main_v121 (ix4 b q n (1 : Fin 2)))) = ix3 b q (1 : Fin 4) := by
    funext a; match a with | ⟨0, _⟩ => rfl | ⟨1, _⟩ => rfl | ⟨2, _⟩ => rfl
  have h2 : idx_main_v119 (idx_main_v120 (idx_main_v122 (ix4 b q n (1 : Fin 2)))) = ix3 b n (1 : Fin 4) := by
    funext a; match a with | ⟨0, _⟩ => rfl | ⟨1, _⟩ => rfl | ⟨2, _⟩ => rfl
  rw [h1, h2]; rfl

/-- Horizontal axis: the larger of the two right edges. -/
theorem right_at0 (x1 : (⟨S128x900x4, .f32⟩ : BufTy).Contents (Elt Ideal)) (x2 : (⟨S128x300x4, .f32⟩ : BufTy).Contents (Elt Ideal))
    (b : Fin 128) (q : Fin 900) (n : Fin 300) :
    val_main_v130 (F := Ideal) x1 x2 (ix4 b q n (0 : Fin 2))
      = max (val_main_v66 (F := Ideal) x1 (ix3 b q (2 : Fin 4))) (x2 (ix3 b n (2 : Fin 4))) := by
  rw [val_main_v130_apply, val_main_v128_apply, val_main_v125_apply, val_main_v124_apply,
    val_main_v129_apply, val_main_v127_apply, val_main_v126_apply]
  have h1 : idx_main_v124 (idx_main_v125 (idx_main_v128 (ix4 b q n (0 : Fin 2)))) = ix3 b q (2 : Fin 4) := by
    funext a; match a with | ⟨0, _⟩ => rfl | ⟨1, _⟩ => rfl | ⟨2, _⟩ => rfl
  have h2 : idx_main_v126 (idx_main_v127 (idx_main_v129 (ix4 b q n (0 : Fin 2)))) = ix3 b n (2 : Fin 4) := by
    funext a; match a with | ⟨0, _⟩ => rfl | ⟨1, _⟩ => rfl | ⟨2, _⟩ => rfl
  rw [h1, h2]; rfl

/-- Vertical axis: the larger of the two bottom edges. -/
theorem right_at1 (x1 : (⟨S128x900x4, .f32⟩ : BufTy).Contents (Elt Ideal)) (x2 : (⟨S128x300x4, .f32⟩ : BufTy).Contents (Elt Ideal))
    (b : Fin 128) (q : Fin 900) (n : Fin 300) :
    val_main_v130 (F := Ideal) x1 x2 (ix4 b q n (1 : Fin 2))
      = max (val_main_v66 (F := Ideal) x1 (ix3 b q (3 : Fin 4))) (x2 (ix3 b n (3 : Fin 4))) := by
  rw [val_main_v130_apply, val_main_v128_apply, val_main_v125_apply, val_main_v124_apply,
    val_main_v129_apply, val_main_v127_apply, val_main_v126_apply]
  have h1 : idx_main_v124 (idx_main_v125 (idx_main_v128 (ix4 b q n (1 : Fin 2)))) = ix3 b q (3 : Fin 4) := by
    funext a; match a with | ⟨0, _⟩ => rfl | ⟨1, _⟩ => rfl | ⟨2, _⟩ => rfl
  have h2 : idx_main_v126 (idx_main_v127 (idx_main_v129 (ix4 b q n (1 : Fin 2)))) = ix3 b n (3 : Fin 4) := by
    funext a; match a with | ⟨0, _⟩ => rfl | ⟨1, _⟩ => rfl | ⟨2, _⟩ => rfl
  rw [h1, h2]; rfl

/-! ## The clipped extent -/

/-- The extent on an axis, right end minus left end, clipped below at 0. The program takes the maximum with the
    zero constant on the left; the maximum is symmetric. -/
theorem extent_apply (x1 : (⟨S128x900x4, .f32⟩ : BufTy).Contents (Elt Ideal)) (x2 : (⟨S128x300x4, .f32⟩ : BufTy).Contents (Elt Ideal))
    (i : S128x900x300x2.Idx) :
    val_main_v132 (F := Ideal) x1 x2 i
      = max (val_main_v130 (F := Ideal) x1 x2 i - val_main_v123 (F := Ideal) x1 x2 i) zero32 := by
  rw [val_main_v132_apply, val_main_call2_v1_apply, val_main_call2_v0_apply, val_main_cst_10_apply, val_main_v131_apply]
  exact max_comm _ _

/-! ## The two extents taken apart

The extent array's last axis is cut into its two positions and the unit axis dropped. Dropping a unit axis keeps the
row-major position, so the (b, q, n) entry of each piece is the (b, q, n, k) entry of the extent array. -/

/-- The row-major position of (b, q, n) in a 128 × 900 × 300 array, taken apart again, gives back b, q and n. -/
theorem width_idx (b : Fin 128) (q : Fin 900) (n : Fin 300) :
    idx_main_v133 (idx_main_v134 (ix3 b q n)) = ix4 b q n (0 : Fin 2) := by
  have hb := b.isLt; have hq := q.isLt; have hn := n.isLt
  funext a
  match a with
  | ⟨0, _⟩ => exact Fin.ext (by show ((b.val * 900 + q.val) * 300 + n.val) / 270000 = b.val; omega)
  | ⟨1, _⟩ => exact Fin.ext (by show ((b.val * 900 + q.val) * 300 + n.val) / 300 % 900 = q.val; omega)
  | ⟨2, _⟩ => exact Fin.ext (by show ((b.val * 900 + q.val) * 300 + n.val) / 1 % 300 = n.val; omega)
  | ⟨3, _⟩ => rfl

/-- The same for the second piece, which starts at position 1 of the last axis. -/
theorem height_idx (b : Fin 128) (q : Fin 900) (n : Fin 300) :
    idx_main_v135 (idx_main_v136 (ix3 b q n)) = ix4 b q n (1 : Fin 2) := by
  have hb := b.isLt; have hq := q.isLt; have hn := n.isLt
  funext a
  match a with
  | ⟨0, _⟩ => exact Fin.ext (by show ((b.val * 900 + q.val) * 300 + n.val) / 270000 = b.val; omega)
  | ⟨1, _⟩ => exact Fin.ext (by show ((b.val * 900 + q.val) * 300 + n.val) / 300 % 900 = q.val; omega)
  | ⟨2, _⟩ => exact Fin.ext (by show ((b.val * 900 + q.val) * 300 + n.val) / 1 % 300 = n.val; omega)
  | ⟨3, _⟩ => rfl

/-- The enclosing box's area from the corner array: the product of the horizontal and the vertical clipped extent. -/
theorem hull_of_corners (x1 : (⟨S128x900x4, .f32⟩ : BufTy).Contents (Elt Ideal)) (x2 : (⟨S128x300x4, .f32⟩ : BufTy).Contents (Elt Ideal))
    (b : Fin 128) (q : Fin 900) (n : Fin 300) :
    val_main_v137 (F := Ideal) x1 x2 (ix3 b q n)
      = max (max (val_main_v66 (F := Ideal) x1 (ix3 b q (2 : Fin 4))) (x2 (ix3 b n (2 : Fin 4)))
              - min (val_main_v66 (F := Ideal) x1 (ix3 b q (0 : Fin 4))) (x2 (ix3 b n (0 : Fin 4)))) zero32
        * max (max (val_main_v66 (F := Ideal) x1 (ix3 b q (3 : Fin 4))) (x2 (ix3 b n (3 : Fin 4)))
              - min (val_main_v66 (F := Ideal) x1 (ix3 b q (1 : Fin 4))) (x2 (ix3 b n (1 : Fin 4)))) zero32 := by
  rw [val_main_v137_apply, val_main_v134_apply, val_main_v133_apply, val_main_v136_apply, val_main_v135_apply,
    width_idx, height_idx, extent_apply, extent_apply, left_at0, left_at1, right_at0, right_at1]
  rfl

/-- The enclosing box's area. -/
theorem hull_apply (x1 : (⟨S128x900x4, .f32⟩ : BufTy).Contents (Elt Ideal)) (x2 : (⟨S128x300x4, .f32⟩ : BufTy).Contents (Elt Ideal))
    (b : Fin 128) (q : Fin 900) (n : Fin 300) :
    val_main_v137 (F := Ideal) x1 x2 (ix3 b q n)
      = hull (x1 (ix3 b q (0 : Fin 4))) (x1 (ix3 b q (1 : Fin 4))) (x1 (ix3 b q (2 : Fin 4))) (x1 (ix3 b q (3 : Fin 4)))
        (x2 (ix3 b n (0 : Fin 4))) (x2 (ix3 b n (1 : Fin 4))) (x2 (ix3 b n (2 : Fin 4))) (x2 (ix3 b n (3 : Fin 4))) := by
  rw [hull_of_corners, corner0_apply, corner1_apply, corner2_apply, corner3_apply]
  rfl

end Cert.ReferenceIdeal.Hull

end
-- ==== Proof.RefTotal.lean ====
/-
  The reference's result at one (batch, query, target) triple is the specification's cost. The reference adds
  5 · (its ℓ¹ term), 1 · (its negated class probability) and 2 · (its negated GIoU), where its GIoU is
  inter/union − (hull − union)/hull of the areas it computed; the specification writes the two negations as 0 − ·,
  the same number on every extended real.
-/
import proofs.«414171_j77472620085888_1_alg».proof.Proof.RefClass
import proofs.«414171_j77472620085888_1_alg».proof.Proof.RefL1
import proofs.«414171_j77472620085888_1_alg».proof.Proof.RefInter
import proofs.«414171_j77472620085888_1_alg».proof.Proof.RefHull
import proofs.«414171_j77472620085888_1_alg».proof.Proof.RefRead
import proofs.«414171_j77472620085888_1_alg».proof.Proof.Spec
import Idealize.ShloMosaic.PureOps.Ideal.Laws
import Idealize.ShloMosaic.Lib.ValueIdx

noncomputable section

namespace Cert.ReferenceIdeal.Total

open Cert.ReferenceIdeal Cert.ReferenceIdeal.ReadP Cert.MatchCost Idealize.ShloMosaic Idealize.ShloMosaic.ValueIdx
open Cert.ReferenceIdeal.ClassTerm Cert.ReferenceIdeal.BoxL1 Cert.ReferenceIdeal.InterUnion Cert.ReferenceIdeal.Hull

/-- Subtracting from the zero literal is negating. -/
theorem zero32_sub (a : EReal) : zero32 - a = -a := by
  show Ideal.ofBits .f32 0x00000000#32 - a = -a
  rw [Ideal.ofBits_zero_f32, zero_sub]

/-- The reference's negated GIoU at (b, q, n). -/
theorem refGiou_apply (x1 : (⟨S128x900x4, .f32⟩ : BufTy).Contents (Elt Ideal)) (x2 : (⟨S128x300x4, .f32⟩ : BufTy).Contents (Elt Ideal))
    (b : Fin 128) (q : Fin 900) (n : Fin 300) :
    val_main_v141 (F := Ideal) x1 x2 (ix3 b q n)
      = - giou (x1 (ix3 b q (0 : Fin 4))) (x1 (ix3 b q (1 : Fin 4))) (x1 (ix3 b q (2 : Fin 4))) (x1 (ix3 b q (3 : Fin 4)))
          (x2 (ix3 b n (0 : Fin 4))) (x2 (ix3 b n (1 : Fin 4))) (x2 (ix3 b n (2 : Fin 4))) (x2 (ix3 b n (3 : Fin 4))) := by
  rw [val_main_v141_apply, val_main_v140_apply, val_main_v116_apply, val_main_v139_apply, val_main_v138_apply,
    inter_apply, union_apply, hull_apply]
  rfl

/-- THE REFERENCE IS THE SPECIFICATION at every triple whose target label is a class index. -/
theorem ref_eq_G (x0 : (⟨S128x900x92, .f32⟩ : BufTy).Contents (Elt Ideal)) (x1 : (⟨S128x900x4, .f32⟩ : BufTy).Contents (Elt Ideal))
    (x2 : (⟨S128x300x4, .f32⟩ : BufTy).Contents (Elt Ideal)) (x3 : (⟨S128x300, .i32⟩ : BufTy).Contents (Elt Ideal))
    (hlab : ∀ j : S128x300.Idx, (x3 j).toNat < 92) :
    val_main_v149 (F := Ideal) x0 x1 x2 x3 = G x0 x1 x2 x3 := by
  funext i
  obtain ⟨b, q, n, rfl⟩ : ∃ (b : Fin 128) (q : Fin 900) (n : Fin 300), i = ix3 b q n := ⟨i 0, i 1, i 2, eq_ix3 i⟩
  rw [val_main_v149_apply, val_main_v146_apply, val_main_v143_apply, val_main_v145_apply, val_main_v148_apply,
    val_main_v142_apply, val_main_v144_apply, val_main_v147_apply, val_main_cst_11_apply, val_main_cst_12_apply,
    val_main_cst_13_apply, refL1_apply, refClass_apply x0 x3 b q n (hlab _), refGiou_apply]
  show (five32 * _ + one32 * (- prob x0 x3 b q n)) + two32 * (- giou _ _ _ _ _ _ _ _) = cost _ _ _ _ _ _ _ _ (zero32 - prob x0 x3 b q n)
  unfold cost
  rw [zero32_sub, zero32_sub]

end Cert.ReferenceIdeal.Total

end
-- ==== Proof.lean ====
/-
  The matching-cost kernel against its jnp reference: both compute, for every batch `b`, query `q` and target `n`,
      5 · ℓ¹(box_q, box_n) + 1 · (−softmax(logits_{b,q})_{label(b,n)}) + 2 · (−GIoU(box_q, box_n)).
  The kernel reads the class probability by contracting the softmax row with the one-hot column of the label; the
  reference looks it up along the class axis. The two agree exactly when the label is a class index, 0 ≤ label < 92,
  which the precondition states; outside that range the reference's lookup wraps a negative label or reads a fill value
  while the kernel's one-hot column is zero. The box terms are the same operations on both sides (the reference halves
  where the kernel multiplies by ½, negates where the kernel subtracts from 0, and clips with `max 0 ·` where the kernel
  writes `max · 0`), so they agree on every extended real and finiteness of the float inputs is never used.

  `Cert.MatchCost.G` (Proof/Spec.lean) is the common value. The kernel's output array is `G` of the arguments
  (Proof/KerFinal.lean: each grid point writes one batch's block, the stored value read at an index is the cost); the
  reference's result is `G` of the arguments (Proof/RefTotal.lean, from the class term, the ℓ¹ term and the areas read
  one operation at a time). The three frames are the generated ones; the ideal pass rewrote nothing.
-/
import proofs.«414171_j77472620085888_1_alg».proof.Defs
import proofs.«414171_j77472620085888_1_alg».proof.Proof.Gen.Kernel
import proofs.«414171_j77472620085888_1_alg».proof.Proof.Gen.Kernel.Skeleton
import proofs.«414171_j77472620085888_1_alg».proof.Proof.Gen.Kernel.Launch
import proofs.«414171_j77472620085888_1_alg».proof.Proof.Gen.Kernel.Points
import proofs.«414171_j77472620085888_1_alg».proof.Proof.Gen.Kernel.Frame
import proofs.«414171_j77472620085888_1_alg».proof.Proof.Gen.KernelIdeal
import proofs.«414171_j77472620085888_1_alg».proof.Proof.Gen.KernelIdeal.Skeleton
import proofs.«414171_j77472620085888_1_alg».proof.Proof.Gen.KernelIdeal.Launch
import proofs.«414171_j77472620085888_1_alg».proof.Proof.Gen.KernelIdeal.Points
import proofs.«414171_j77472620085888_1_alg».proof.Proof.Gen.KernelIdeal.Frame
import proofs.«414171_j77472620085888_1_alg».proof.Proof.Gen.ReferenceIdeal
import proofs.«414171_j77472620085888_1_alg».proof.Proof.Gen.Pre_finite_inputs
import proofs.«414171_j77472620085888_1_alg».proof.Proof.RefRun
import proofs.«414171_j77472620085888_1_alg».proof.Proof.RefRead
import proofs.«414171_j77472620085888_1_alg».proof.Proof.Spec
import proofs.«414171_j77472620085888_1_alg».proof.Proof.LabelRange
import proofs.«414171_j77472620085888_1_alg».proof.Proof.KerFinal
import proofs.«414171_j77472620085888_1_alg».proof.Proof.RefTotal
import Idealize.ShloMosaic.Adequacy
import Idealize.ShloMosaic.Init

noncomputable section

namespace Cert.Proof

open Idealize.ShloMosaic Idealize.ShloMosaic.TcCoe Idealize.SL.Sem Cert.MatchCost

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, under the precondition, both programs end with `G` of the arguments:
    the precondition gives the label range, the kernel's run ends at `G`, and the reference's result term is `G`. -/
theorem algebraic : Cert.algebraic_KernelIdeal_ReferenceIdeal := by
  intro m ρ m' ρ' hpre hagree
  have hlab : ∀ (c : Dev Cert.KernelIdeal.nD) (j : Cert.KernelIdeal.S128x300.Idx),
      (m ((c : Thread Cert.KernelIdeal.nD Cert.KernelIdeal.τ).loc Cert.KernelIdeal.main_arg3) j).toNat < 92 :=
    fun c j => Cert.LabelRange.toNat_lt_of_pre _ _ _ _ (hpre c) j
  refine ⟨fun c => G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Final.run m ρ hlab, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v149_eq, (hagree c).1, (hagree c).2.1, (hagree c).2.2.1, (hagree c).2.2.2]
  exact Cert.ReferenceIdeal.Total.ref_eq_G _ _ _ _ (hlab c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
